-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S400000x128 : Shape := ⟨2, ![400000, 128]⟩
abbrev S512x128 : Shape := ⟨2, ![512, 128]⟩
abbrev S400000 : Shape := ⟨1, ![400000]⟩
abbrev S128 : Shape := ⟨1, ![128]⟩
abbrev S128x128 : Shape := ⟨2, ![128, 128]⟩
abbrev S_ : Shape := ⟨0, ![]⟩

class Facts : Prop where
  bcast_S_S400000x128 : S_.BroadcastsInDim S400000x128 (![] : Fin 0 → Fin S400000x128.rank)
  reducesTo_S400000x128_S_d0_1 : S400000x128.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S400000 : S_.BroadcastsInDim S400000 (![] : Fin 0 → Fin S400000.rank)
  reducesTo_S400000_S_d0 : S400000.ReducesTo [0] S_

variable [Facts]

def fn_part2 {F : FTy → Type} [FloatOps F] (main_arg4 : IVec S400000 32) (main_arg8 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_c_14 : IVec S_ 32 := constantI S_ 32 0#32
  let main_v39 : IVec S400000 32 := broadcastInDim S400000 ![] bcast_S_S400000 main_c_14
  let main_v40 : IVec S400000 1 := cmpi .sge main_arg4 main_v39
  let main_c_15 : IVec S_ 1 := constantI S_ 1 1#1
  let main_v41 : IVec S_ 1 := (fun x v => Host.reduce IntOp.andi x v reducesTo_S400000_S_d0 h_S_) main_v40 main_c_15
  let main_v42 : IVec S_ 1 := andi main_v38 main_v41
  let main_c_16 : IVec S_ 32 := constantI S_ 32 512#32
  let main_v43 : IVec S400000 32 := broadcastInDim S400000 ![] bcast_S_S400000 main_c_16
  let main_v44 : IVec S400000 1 := cmpi .slt main_arg4 main_v43
  let main_c_17 : IVec S_ 1 := constantI S_ 1 1#1
  let main_v45 : IVec S_ 1 := (fun x v => Host.reduce IntOp.andi x v reducesTo_S400000_S_d0 h_S_) main_v44 main_c_17
  let main_v46 : IVec S_ 1 := andi main_v42 main_v45
  main_v46

def fn_part1 {F : FTy → Type} [FloatOps F] (main_arg4 : IVec S400000 32) (main_arg5 : FVec F S512x128 .f32) (main_arg6 : FVec F S128 .f32) (main_arg7 : FVec F S128x128 .f32) (main_arg8 : FVec F S128 .f32) (main_v13 : IVec S_ 1) (main_v16 : IVec S512x128 1) : IVec S_ 1 :=
  let main_c_5 : IVec S_ 1 := constantI S_ 1 1#1
  let main_v17 : IVec S_ 1 := (fun x v => Host.reduce IntOp.andi x v reducesTo_S512x128_S_d0_1 h_S_) main_v16 main_c_5
  let main_v18 : IVec S_ 1 := andi main_v13 main_v17
  let main_v19 : FVec F S512x128 .f32 := Host.absf main_arg5
  let main_cst_6 : FVec F S_ .f32 := constant S_ .f32 0x7F800000#32
  let main_v20 : FVec F S512x128 .f32 := broadcastInDim S512x128 ![] bcast_S_S512x128 main_cst_6
  let main_v21 : IVec S512x128 1 := cmpf .olt main_v19 main_v20
  let main_c_7 : IVec S_ 1 := constantI S_ 1 1#1
  let main_v22 : IVec S_ 1 := (fun x v => Host.reduce IntOp.andi x v reducesTo_S512x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg4 main_arg8 main_v33

def fn {F : FTy → Type} [FloatOps F] (main_arg0 : FVec F S400000x128 .f32) (main_arg1 : FVec F S400000x128 .f32) (main_arg2 : FVec F S400000x128 .f32) (main_arg3 : FVec F S512x128 .f32) (main_arg4 : IVec S400000 32) (main_arg5 : FVec F S512x128 .f32) (main_arg6 : FVec F S128 .f32) (main_arg7 : FVec F S128x128 .f32) (main_arg8 : FVec F S128 .f32) : IVec S_ 1 :=
  let main_v0 : FVec F S400000x128 .f32 := Host.absf main_arg0
  let main_cst : FVec F S_ .f32 := constant S_ .f32 0x7F800000#32
  let main_v1 : FVec F S400000x128 .f32 := broadcastInDim S400000x128 ![] bcast_S_S400000x128 main_cst
  let main_v2 : IVec S400000x128 1 := cmpf .olt main_v0 main_v1
  let main_c : IVec S_ 1 := constantI S_ 1 1#1
  let main_v3 : IVec S_ 1 := (fun x v => Host.reduce IntOp.andi x v reducesTo_S400000x128_S_d0_1 h_S_) main_v2 main_c
  let main_v4 : FVec F S400000x128 .f32 := Host.absf main_arg1
  let main_cst_0 : FVec F S_ .f32 := constant S_ .f32 0x7F800000#32
  let main_v5 : FVec F S400000x128 .f32 := broadcastInDim S400000x128 ![] bcast_S_S400000x128 main_cst_0
  let main_v6 : IVec S400000x128 1 := cmpf .olt main_v4 main_v5
  let main_c_1 : IVec S_ 1 := constantI S_ 1 1#1
  let main_v7 : IVec S_ 1 := (fun x v => Host.reduce IntOp.andi x v reducesTo_S400000x128_S_d0_1 h_S_) main_v6 main_c_1
  let main_v8 : IVec S_ 1 := andi main_v3 main_v7
  let main_v9 : FVec F S400000x128 .f32 := Host.absf main_arg2
  let main_cst_2 : FVec F S_ .f32 := constant S_ .f32 0x7F800000#32
  let main_v10 : FVec F S400000x128 .f32 := broadcastInDim S400000x128 ![] bcast_S_S400000x128 main_cst_2
  let main_v11 : IVec S400000x128 1 := cmpf .olt main_v9 main_v10
  let main_c_3 : IVec S_ 1 := constantI S_ 1 1#1
  let main_v12 : IVec S_ 1 := (fun x v => Host.reduce IntOp.andi x v reducesTo_S400000x128_S_d0_1 h_S_) main_v11 main_c_3
  let main_v13 : IVec S_ 1 := andi main_v8 main_v12
  let main_v14 : FVec F S512x128 .f32 := Host.absf main_arg3
  let main_cst_4 : FVec F S_ .f32 := constant S_ .f32 0x7F800000#32
  let main_v15 : FVec F S512x128 .f32 := broadcastInDim S512x128 ![] bcast_S_S512x128 main_cst_4
  let main_v16 : IVec S512x128 1 := cmpf .olt main_v14 main_v15
  fn_part1 (F := F) main_arg4 main_arg5 main_arg6 main_arg7 main_arg8 main_v13 main_v16
-- ==== Kernel.lean ====
abbrev S400000x128 : Shape := ⟨2, ![400000, 128]⟩
abbrev S512x128 : Shape := ⟨2, ![512, 128]⟩
abbrev S400000 : Shape := ⟨1, ![400000]⟩
abbrev S128 : Shape := ⟨1, ![128]⟩
abbrev S128x128 : Shape := ⟨2, ![128, 128]⟩
abbrev S4096x128 : Shape := ⟨2, ![4096, 128]⟩
abbrev S4096 : Shape := ⟨1, ![4096]⟩
abbrev S4096x1 : Shape := ⟨2, ![4096, 1]⟩
abbrev S4096x512 : Shape := ⟨2, ![4096, 512]⟩
abbrev S1x128 : Shape := ⟨2, ![1, 128]⟩

abbrev nBuf : Space → Nat
  | .hbm => 14
  | .vmem => 18
  | .smem => 0
  | _ => 0

abbrev bufTy : (tb : Table) → Fin (tcTables nBuf tb) → BufTy
  | .hbm, ⟨0, _⟩ => ⟨S400000x128, .f32⟩
  | .hbm, ⟨1, _⟩ => ⟨S400000x128, .f32⟩
  | .hbm, ⟨2, _⟩ => ⟨S400000x128, .f32⟩
  | .hbm, ⟨3, _⟩ => ⟨S512x128, .f32⟩
  | .hbm, ⟨4, _⟩ => ⟨S400000, .i32⟩
  | .hbm, ⟨5, _⟩ => ⟨S512x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128x128, .f32⟩
  | .hbm, ⟨11, _⟩ => ⟨S128x128, .f32⟩
  | .hbm, ⟨12, _⟩ => ⟨S128x128, .f32⟩
  | .hbm, ⟨13, _⟩ => ⟨S400000x128, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S4096, .i32⟩
  | .local _ .vmem, ⟨7, _⟩ => ⟨S4096, .i32⟩
  | .local _ .vmem, ⟨8, _⟩ => ⟨S512x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S128, .f32⟩
  | .local _ .vmem, ⟨14, _⟩ => ⟨S128x128, .f32⟩
  | .local _ .vmem, ⟨15, _⟩ => ⟨S128, .f32⟩
  | .local _ .vmem, ⟨16, _⟩ => ⟨S4096x128, .f32⟩
  | .local _ .vmem, ⟨17, _⟩ => ⟨S4096x128, .f32⟩
  | _, _ => ⟨S400000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨1, ![98], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 1 → Nat :=
  let arg0 : BitVec 32 := BitVec.ofNat 32 (i 0).val
  let c0_i32 : BitVec 32 := 0#32
  ![arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S4096x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  slices_S512x128_S128x128_0_0 : S512x128.Slices ![0, 0] S128x128
  slices_S512x128_S128x128_128_0 : S512x128.Slices ![128, 0] S128x128
  slices_S512x128_S128x128_256_0 : S512x128.Slices ![256, 0] S128x128
  slices_S512x128_S128x128_384_0 : S512x128.Slices ![384, 0] S128x128
  inb_S4096_S4096_0 : ∀ a, (![0] : Fin 1 → Nat) a + S4096.size a ≤ S4096.size a
  h_S4096 : 0 < S4096.numel
  shapeCasts_S4096_S4096x1 : S4096.ShapeCasts S4096x1
  iota_S4096x512_d1_w32 : S4096x512.Iotas .tc 32 [1]
  broadcasts_S4096x1_S4096x512 : S4096x1.Broadcasts S4096x512
  natLt_1_32 : 1 < 32
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S4096x128_S4096x128_0_0 : ∀ a, (![0, 0] : Fin 2 → Nat) a + S4096x128.size a ≤ S4096x128.size a
  h_S4096x128 : 0 < S4096x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S4096x128 : S1x128.Broadcasts S4096x128
  dot_S4096x512_S512x128_S4096x128_1_0_0_1_n_n_wf : DotDims.WF S4096x512 S512x128 S4096x128 [1] [0] [0] [1] [] []
  dot_S4096x128_S128x128_S4096x128_1_0_0_1_n_n_wf : DotDims.WF S4096x128 S128x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S4096x128.size a < S400000x128.size a
  hwx0_0 : ∀ i : grid0.Coords, EltTy.bits .f32 = 32 ∨ (Rect.unit (s := S400000x128) (fun a => cc0_transform_0 i a * S4096x128.size a) (fun a => (Pipeline.Clip.of (cc0_transform_0 i a) (S4096x128.size a) (S400000x128.size a)).extent (S4096x128.size a)) fun a => Pipeline.Clip.inb (Pipeline.Clip.ok_of (hstart0_0 i a))).WholeWords (EltTy.packing .f32)
  hwxs0_0 : ∀ i : grid0.Coords, EltTy.bits .f32 = 32 ∨ (Rect.unit (s := S4096x128) (fun _ => 0) (fun a => (Pipeline.Clip.of (cc0_transform_0 i a) (S4096x128.size a) (S400000x128.size a)).extent (S4096x128.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S4096x128.size a < S400000x128.size a
  hwx0_1 : ∀ i : grid0.Coords, EltTy.bits .f32 = 32 ∨ (Rect.unit (s := S400000x128) (fun a => cc0_transform_1 i a * S4096x128.size a) (fun a => (Pipeline.Clip.of (cc0_transform_1 i a) (S4096x128.size a) (S400000x128.size a)).extent (S4096x128.size a)) fun a => Pipeline.Clip.inb (Pipeline.Clip.ok_of (hstart0_1 i a))).WholeWords (EltTy.packing .f32)
  hwxs0_1 : ∀ i : grid0.Coords, EltTy.bits .f32 = 32 ∨ (Rect.unit (s := S4096x128) (fun _ => 0) (fun a => (Pipeline.Clip.of (cc0_transform_1 i a) (S4096x128.size a) (S400000x128.size a)).extent (S4096x128.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S4096x128.size a < S400000x128.size a
  hwx0_2 : ∀ i : grid0.Coords, EltTy.bits .f32 = 32 ∨ (Rect.unit (s := S400000x128) (fun a => cc0_transform_2 i a * S4096x128.size a) (fun a => (Pipeline.Clip.of (cc0_transform_2 i a) (S4096x128.size a) (S400000x128.size a)).extent (S4096x128.size a)) fun a => Pipeline.Clip.inb (Pipeline.Clip.ok_of (hstart0_2 i a))).WholeWords (EltTy.packing .f32)
  hwxs0_2 : ∀ i : grid0.Coords, EltTy.bits .f32 = 32 ∨ (Rect.unit (s := S4096x128) (fun _ => 0) (fun a => (Pipeline.Clip.of (cc0_transform_2 i a) (S4096x128.size a) (S400000x128.size a)).extent (S4096x128.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S4096.size a < S400000.size a
  hwx0_3 : ∀ i : grid0.Coords, EltTy.bits .i32 = 32 ∨ (Rect.unit (s := S400000) (fun a => cc0_transform_3 i a * S4096.size a) (fun a => (Pipeline.Clip.of (cc0_transform_3 i a) (S4096.size a) (S400000.size a)).extent (S4096.size a)) fun a => Pipeline.Clip.inb (Pipeline.Clip.ok_of (hstart0_3 i a))).WholeWords (EltTy.packing .i32)
  hwxs0_3 : ∀ i : grid0.Coords, EltTy.bits .i32 = 32 ∨ (Rect.unit (s := S4096) (fun _ => 0) (fun a => (Pipeline.Clip.of (cc0_transform_3 i a) (S4096.size a) (S400000.size a)).extent (S4096.size a)) fun a => (Nat.zero_add _).trans_le (Pipeline.Clip.extent_le (Pipeline.Clip.ok_of (hstart0_3 i a)))).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x128.size a ≤ S512x128.size a
  hwx0_4 : ∀ i : grid0.Coords, EltTy.bits .f32 = 32 ∨ (Rect.block (s := S512x128) S512x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .f32 = 32 ∨ (Rect.block (s := S128x128) S128x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128.size a ≤ S128.size a
  hwx0_9 : ∀ i : grid0.Coords, EltTy.bits .f32 = 32 ∨ (Rect.block (s := S128) S128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128x128.size a ≤ S128x128.size a
  hwx0_10 : ∀ i : grid0.Coords, EltTy.bits .f32 = 32 ∨ (Rect.block (s := S128x128) S128x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128.size a ≤ S128.size a
  hwx0_11 : ∀ i : grid0.Coords, EltTy.bits .f32 = 32 ∨ (Rect.block (s := S128) S128.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hstart0_12 : ∀ (i : grid0.Coords) a, cc0_transform_12 i a * S4096x128.size a < S400000x128.size a
  hwx0_12 : ∀ i : grid0.Coords, EltTy.bits .f32 = 32 ∨ (Rect.unit (s := S400000x128) (fun a => cc0_transform_12 i a * S4096x128.size a) (fun a => (Pipeline.Clip.of (cc0_transform_12 i a) (S4096x128.size a) (S400000x128.size a)).extent (S4096x128.size a)) fun a => Pipeline.Clip.inb (Pipeline.Clip.ok_of (hstart0_12 i a))).WholeWords (EltTy.packing .f32)
  hwxs0_12 : ∀ i : grid0.Coords, EltTy.bits .f32 = 32 ∨ (Rect.unit (s := S4096x128) (fun _ => 0) (fun a => (Pipeline.Clip.of (cc0_transform_12 i a) (S4096x128.size a) (S400000x128.size a)).extent (S4096x128.size a)) fun a => (Nat.zero_add _).trans_le (Pipeline.Clip.extent_le (Pipeline.Clip.ok_of (hstart0_12 i a)))).WholeWords (EltTy.packing .f32)

variable [Facts₀]

def dot_S4096x512_S512x128_S4096x128_1_0_0_1_n_n : DotDims S4096x512 S512x128 S4096x128 where
  lhsContracting := [1]
  rhsContracting := [0]
  lhsNonContracting := [0]
  rhsNonContracting := [1]
  lhsBatch := []
  rhsBatch := []
  wf := dot_S4096x512_S512x128_S4096x128_1_0_0_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf

abbrev win0_0 : Pipeline.Window sig grid0 :=
  Pipeline.Window.ofSpecClip (Memref.whole main_arg0) S4096x128.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_arg1) S4096x128.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_arg2) S4096x128.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_arg4) S4096.size cc0_transform_3 reads0_3 false false 2 stage0_3 sem0_3
    hrank0 hreads0_3 hstart0_3 nbuf0_3 (Memref.isWhole_whole _) hwx0_3 hwxs0_3 hstage0_3

abbrev win0_4 : Pipeline.Window sig grid0 :=
  Pipeline.Window.ofSpec (Memref.whole main_arg3) S512x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg6) S128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg7) S128x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg8) S128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpecClip (Memref.whole main_v4) S4096x128.size cc0_transform_12 reads0_12 true false 2 stage0_12 sem0_12
    hrank0 hreads0_12 hstart0_12 nbuf0_12 (Memref.isWhole_whole _) hwx0_12 hwxs0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S400000x128 : Shape := ⟨2, ![400000, 128]⟩
abbrev S512x128 : Shape := ⟨2, ![512, 128]⟩
abbrev S400000 : Shape := ⟨1, ![400000]⟩
abbrev S128 : Shape := ⟨1, ![128]⟩
abbrev S128x128 : Shape := ⟨2, ![128, 128]⟩
abbrev S_ : Shape := ⟨0, ![]⟩
abbrev S400000x1 : Shape := ⟨2, ![400000, 1]⟩
abbrev S400000x512 : Shape := ⟨2, ![400000, 512]⟩
abbrev S1x128 : Shape := ⟨2, ![1, 128]⟩

abbrev nBuf : Space → Nat
  | .hbm => 30
  | .vmem => 0
  | .smem => 0
  | _ => 0

abbrev bufTy : (tb : Table) → Fin (tcTables nBuf tb) → BufTy
  | .hbm, ⟨0, _⟩ => ⟨S400000x128, .f32⟩
  | .hbm, ⟨1, _⟩ => ⟨S400000x128, .f32⟩
  | .hbm, ⟨2, _⟩ => ⟨S400000x128, .f32⟩
  | .hbm, ⟨3, _⟩ => ⟨S512x128, .f32⟩
  | .hbm, ⟨4, _⟩ => ⟨S400000, .i32⟩
  | .hbm, ⟨5, _⟩ => ⟨S512x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S_, .i32⟩
  | .hbm, ⟨10, _⟩ => ⟨S400000, .i32⟩
  | .hbm, ⟨11, _⟩ => ⟨S400000, .i1⟩
  | .hbm, ⟨12, _⟩ => ⟨S_, .i32⟩
  | .hbm, ⟨13, _⟩ => ⟨S400000, .i32⟩
  | .hbm, ⟨14, _⟩ => ⟨S400000, .i32⟩
  | .hbm, ⟨15, _⟩ => ⟨S400000, .i32⟩
  | .hbm, ⟨16, _⟩ => ⟨S400000x1, .i32⟩
  | .hbm, ⟨17, _⟩ => ⟨S400000x128, .f32⟩
  | .hbm, ⟨18, _⟩ => ⟨S400000x512, .f32⟩
  | .hbm, ⟨19, _⟩ => ⟨S400000x128, .f32⟩
  | .hbm, ⟨20, _⟩ => ⟨S1x128, .f32⟩
  | .hbm, ⟨21, _⟩ => ⟨S400000x128, .f32⟩
  | .hbm, ⟨22, _⟩ => ⟨S400000x128, .f32⟩
  | .hbm, ⟨23, _⟩ => ⟨S_, .f32⟩
  | .hbm, ⟨24, _⟩ => ⟨S400000x128, .f32⟩
  | .hbm, ⟨25, _⟩ => ⟨S400000x128, .f32⟩
  | .hbm, ⟨26, _⟩ => ⟨S400000x128, .f32⟩
  | .hbm, ⟨27, _⟩ => ⟨S1x128, .f32⟩
  | .hbm, ⟨28, _⟩ => ⟨S400000x128, .f32⟩
  | .hbm, ⟨29, _⟩ => ⟨S400000x128, .f32⟩
  | _, _ => ⟨S400000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_call0_cst : Ref sig .tc := ⟨.hbm, 23, rfl⟩
abbrev main_call0_v0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩

abbrev nD : Nat := 1
abbrev τ : Topo := Topo.v7x

variable {F : FTy → Type} [FloatOps F]

class Facts₀ : Prop where
  bcast_S_S400000 : S_.BroadcastsInDim S400000 (![] : Fin 0 → Fin S400000.rank)
  bcast_S400000_S400000x1_0 : S400000.BroadcastsInDim S400000x1 (![0] : Fin 1 → Fin S400000x1.rank)
  concatenates_S400000x128_S400000x128_S400000x128_S400000x128_S400000x512_d1 : Shape.Concatenates [S400000x128, S400000x128, S400000x128, S400000x128] S400000x512 1
  bcast_S128_S1x128_1 : S128.BroadcastsInDim S1x128 (![1] : Fin 1 → Fin S1x128.rank)
  bcast_S1x128_S400000x128_0_1 : S1x128.BroadcastsInDim S400000x128 (![0, 1] : Fin 2 → Fin S400000x128.rank)
  bcast_S_S400000x128 : S_.BroadcastsInDim S400000x128 (![] : Fin 0 → Fin S400000x128.rank)
  gather_S512x128_S400000x1_S400000x128_1_0_n_n_0_1_1128_wf : GatherDims.WF S512x128 S400000x1 S400000x128 [1] [0] [] [0] [] 1 ![1, 128]
  dot_S400000x512_S512x128_S400000x128_1_0_0_1_n_n_wf : DotDims.WF S400000x512 S512x128 S400000x128 [1] [0] [0] [1] [] []
  dot_S400000x128_S128x128_S400000x128_1_0_0_1_n_n_wf : DotDims.WF S400000x128 S128x128 S400000x128 [1] [0] [0] [1] [] []

variable [Facts₀]

def gather_S512x128_S400000x1_S400000x128_1_0_n_n_0_1_1128 : GatherDims S512x128 S400000x1 S400000x128 where
  offsetDims := [1]
  collapsedSliceDims := [0]
  operandBatchingDims := []
  startIndicesBatchingDims := []
  startIndexMap := [0]
  indexVectorDim := 1
  sliceSizes := ![1, 128]
  wf := gather_S512x128_S400000x1_S400000x128_1_0_n_n_0_1_1128_wf
def dot_S400000x512_S512x128_S400000x128_1_0_0_1_n_n : DotDims S400000x512 S512x128 S400000x128 where
  lhsContracting := [1]
  rhsContracting := [0]
  lhsNonContracting := [0]
  rhsNonContracting := [1]
  lhsBatch := []
  rhsBatch := []
  wf := dot_S400000x512_S512x128_S400000x128_1_0_0_1_n_n_wf
def dot_S400000x128_S128x128_S400000x128_1_0_0_1_n_n : DotDims S400000x128 S128x128 S400000x128 where
  lhsContracting := [1]
  rhsContracting := [0]
  lhsNonContracting := [0]
  rhsNonContracting := [1]
  lhsBatch := []
  rhsBatch := []
  wf := dot_S400000x128_S128x128_S400000x128_1_0_0_1_n_n_wf

class Facts : Prop extends Facts₀ where

variable [Facts]
-- ==== Proof.KernelBody.lean ====
/-
  The word-level kernel's frame: every weakly fair execution terminates, nothing faults, and the nine argument arrays
  end as launched.

  At each grid point the body reads its thirteen staging buffers whole, computes, and stores the result's buffer whole;
  the inputs' buffers are left as found. Nothing is said of what the result's buffer holds: at the last grid point the
  clipped windows' rows past the arrays' end hold words nothing names, and at the word level a matrix product is not
  known to keep them out of the other rows; the frame does not need it.
-/
import proofs.«408455_j83760452207461_1_alg».proof.Proof.Gen.Kernel.Frame
import proofs.«408455_j83760452207461_1_alg».proof.Proof.Gen.Kernel.Skeleton
import Idealize.ShloMosaic.Lib.Pipeline.Frame
import Idealize.ShloMosaic.Lib.Pipeline.FrameBody
import Idealize.ShloMosaic.Lib.Pipeline.Kit
import Idealize.ShloMosaic.Lib.Tactic
import Idealize.ShloMosaic.Lib.ValueIdx

set_option maxRecDepth 16384

noncomputable section

namespace Cert.Kernel.Body

open Cert.Kernel Cert.Kernel.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.Tactic

variable {F : FTy → Type} [FloatOps F]

local notation "𝕄" => MT nD τ sig Unit (Elt F) ℕ (UR sig nD τ) ℕ

/-! ## The body's triple -/

set_option maxHeartbeats 1000000 in
/-- The kernel body on whole staging memrefs, the twelve inputs' at contents `x0 … x11` and the result's at anything:
    it loads the twelve whole, loads the result's (a dead value) and stores the result's whole; so it runs to the
    continuation holding the twelve as they were and the result's at some contents. -/
theorem sound_kernel (c : Dev nD) (E : Set ℕ) (i : grid0.Coords)
    (arg1 : Memref sig .tc .vmem S4096x128 .f32) (harg1 : arg1.IsWhole) (arg2 : Memref sig .tc .vmem S4096x128 .f32) (harg2 : arg2.IsWhole)
    (arg3 : Memref sig .tc .vmem S4096x128 .f32) (harg3 : arg3.IsWhole) (arg4 : Memref sig .tc .vmem S4096 .i32) (harg4 : arg4.IsWhole)
    (arg5 : Memref sig .tc .vmem S512x128 .f32) (harg5 : arg5.IsWhole) (arg6 : Memref sig .tc .vmem S128x128 .f32) (harg6 : arg6.IsWhole)
    (arg7 : Memref sig .tc .vmem S128x128 .f32) (harg7 : arg7.IsWhole) (arg8 : Memref sig .tc .vmem S128x128 .f32) (harg8 : arg8.IsWhole)
    (arg9 : Memref sig .tc .vmem S128x128 .f32) (harg9 : arg9.IsWhole) (arg10 : Memref sig .tc .vmem S128 .f32) (harg10 : arg10.IsWhole)
    (arg11 : Memref sig .tc .vmem S128x128 .f32) (harg11 : arg11.IsWhole) (arg12 : Memref sig .tc .vmem S128 .f32) (harg12 : arg12.IsWhole)
    (arg13 : Memref sig .tc .vmem S4096x128 .f32) (harg13 : arg13.IsWhole)
    (x0 x1 x2 : Vec F S4096x128 .f32) (x3 : Vec F S4096 .i32) (x4 : Vec F S512x128 .f32)
    (x5 x6 x7 x8 : Vec F S128x128 .f32) (x9 : Vec F S128 .f32) (x10 : Vec F S128x128 .f32) (x11 : Vec F S128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ owns (c : Thread nD τ) arg10 fullShare x9 ∗ owns (c : Thread nD τ) arg11 fullShare x10 ∗ owns (c : Thread nD τ) arg12 fullShare x11
        ∗ (∃ d, owns (c : Thread nD τ) arg13 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare x8
            ∗ owns (c : Thread nD τ) arg10 fullShare x9 ∗ owns (c : Thread nD τ) arg11 fullShare x10 ∗ owns (c : Thread nD τ) arg12 fullShare x11
            ∗ (∃ d, owns (c : Thread nD τ) arg13 fullShare d)) -∗ K ⟨⟩))
      ⊢ wp frame (wpE (defs₀ (F := F)) Variants.none c none) E
          (cc0__kernel i arg1 harg1 arg2 harg2 arg3 harg3 arg4 harg4 arg5 harg5 arg6 harg6 arg7 harg7 arg8 harg8 arg9 harg9
            arg10 harg10 arg11 harg11 arg12 harg12 arg13 harg13) K := by
  simp only [cc0__kernel_eq_skeleton]; unfold cc0__kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%f8, %hf8, H8⟩, ⟨%f9, %hf9, H9⟩, ⟨%f10, %hf10, H10⟩, ⟨%f11, %hf11, H11⟩, ⟨%d12, %f12, -, H12⟩, Hk⟩
  subst hf0 hf1 hf2 hf3 hf4 hf5 hf6 hf7 hf8 hf9 hf10 hf11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  iexists _, _; isplitr
  swap; · iexact H12
  ipureintro; rfl

variable (m : (ℓ : Loc nD τ sig) → Buf (Elt F) ℓ) (ρ : Dev nD → PrngReg)

/-! ## The proof data -/

/-- The one window whose contents the frame does not name: the result's. -/
def forgets : Fin 13 → Bool := fun w => w.val == 12

/-- The proof data of the pipeline on core `c`: the arrays as the region finds them; after the body at point `t` each
    of the eight whole inputs' buffers at its block, each of the four clipped inputs' at its block's part inside the
    array filled out past the array's end with words nothing reads, and the result's at contents nothing names. -/
def dats (_ : Fin 1) (c : Dev nD) : Dat τ (Elt F) Unit ℕ (UR sig nD τ) ℕ cfg0 c where
  A w := V m c (Pipeline.arrRef spec0 w)
  after w t := match w with
    | ⟨0, _⟩ => (cfg0.win 0).fill (cfg0.grid.coords t) (Pipeline.Dat.unnamed (cfg := cfg0) 0 t) (iblk m c 0 t)
    | ⟨1, _⟩ => (cfg0.win 1).fill (cfg0.grid.coords t) (Pipeline.Dat.unnamed (cfg := cfg0) 1 t) (iblk m c 1 t)
    | ⟨2, _⟩ => (cfg0.win 2).fill (cfg0.grid.coords t) (Pipeline.Dat.unnamed (cfg := cfg0) 2 t) (iblk m c 2 t)
    | ⟨3, _⟩ => (cfg0.win 3).fill (cfg0.grid.coords t) (Pipeline.Dat.unnamed (cfg := cfg0) 3 t) (iblk m c 3 t)
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => Pipeline.Dat.unnamed (cfg := cfg0) 12 t
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t
    = (cfg0.win 0).fill (cfg0.grid.coords t) (Pipeline.Dat.unnamed (cfg := cfg0) 0 t) (iblk m c 0 t) := by dsimp only [dats]
theorem after0_1 (c : Dev nD) (t : Fin cfg0.N) : (dats m 0 c).after 1 t
    = (cfg0.win 1).fill (cfg0.grid.coords t) (Pipeline.Dat.unnamed (cfg := cfg0) 1 t) (iblk m c 1 t) := by dsimp only [dats]
theorem after0_2 (c : Dev nD) (t : Fin cfg0.N) : (dats m 0 c).after 2 t
    = (cfg0.win 2).fill (cfg0.grid.coords t) (Pipeline.Dat.unnamed (cfg := cfg0) 2 t) (iblk m c 2 t) := by dsimp only [dats]
theorem after0_3 (c : Dev nD) (t : Fin cfg0.N) : (dats m 0 c).after 3 t
    = (cfg0.win 3).fill (cfg0.grid.coords t) (Pipeline.Dat.unnamed (cfg := cfg0) 3 t) (iblk m c 3 t) := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]

/-- A clipped input is fetched at every point: its buffer holds the block's part inside the array, and past the
    array's end whatever the overwrite before the fetch left (`d`). -/
theorem before0_0 (c : Dev nD) (t : Fin cfg0.N) (d) :
    (dats m 0 c).before 0 t d = (cfg0.win 0).fill (cfg0.grid.coords t) d (iblk m c 0 t) := by
  unfold Dat.before; rw [if_pos (fetch0_0 t)]; rfl
theorem before0_1 (c : Dev nD) (t : Fin cfg0.N) (d) :
    (dats m 0 c).before 1 t d = (cfg0.win 1).fill (cfg0.grid.coords t) d (iblk m c 1 t) := by
  unfold Dat.before; rw [if_pos (fetch0_1 t)]; rfl
theorem before0_2 (c : Dev nD) (t : Fin cfg0.N) (d) :
    (dats m 0 c).before 2 t d = (cfg0.win 2).fill (cfg0.grid.coords t) d (iblk m c 2 t) := by
  unfold Dat.before; rw [if_pos (fetch0_2 t)]; rfl
theorem before0_3 (c : Dev nD) (t : Fin cfg0.N) (d) :
    (dats m 0 c).before 3 t d = (cfg0.win 3).fill (cfg0.grid.coords t) d (iblk m c 3 t) := by
  unfold Dat.before; rw [if_pos (fetch0_3 t)]; rfl
/-- A whole input's buffer holds its block at every point, fetched there or not. -/
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

/-! ## The body obligation, at a generic point -/

/-- What the body is called with at point `t`, the windows one by one: the result's buffer at anything. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ X, owns (c : Thread nD τ) (st0_12 t) fullShare X))

/-- and what it returns: a clipped input's buffer stated on the rows inside the array, the result's at anything. -/
def bodyPost (c : Dev nD) (t : Fin cfg0.N) : sProp 𝕄 :=
  iprop((dats m 0 c).Φ t.succ ∗ (dats m 0 c).owesAt () t.succ
    ∗ (∃ d, owns (c : Thread nD τ) (st0_0 t) fullShare ((cfg0.win 0).fill (cfg0.grid.coords t) d ((cfg0.win 0).cut (cfg0.grid.coords t) ((dats m 0 c).after 0 t))))
    ∗ (∃ d, owns (c : Thread nD τ) (st0_1 t) fullShare ((cfg0.win 1).fill (cfg0.grid.coords t) d ((cfg0.win 1).cut (cfg0.grid.coords t) ((dats m 0 c).after 1 t))))
    ∗ (∃ d, owns (c : Thread nD τ) (st0_2 t) fullShare ((cfg0.win 2).fill (cfg0.grid.coords t) d ((cfg0.win 2).cut (cfg0.grid.coords t) ((dats m 0 c).after 2 t))))
    ∗ (∃ d, owns (c : Thread nD τ) (st0_3 t) fullShare ((cfg0.win 3).fill (cfg0.grid.coords t) d ((cfg0.win 3).cut (cfg0.grid.coords t) ((dats m 0 c).after 3 t))))
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ (∃ X, owns (c : Thread nD τ) (st0_12 t) fullShare X))

/-- The body at any point: each input's buffer holds its block — a clipped one's filled out past the array's end with
    what the fetch's overwrite left —, so the body's triple applies at those contents; a clipped input's buffer is
    handed back as found, which on the rows inside the array is the block (the part cut back out of the filled block);
    the invariant and the core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).Φ t.succ = (dats m 0 c).Φ t.castSucc from rfl,
    show (dats m 0 c).owesAt () t.succ = (dats m 0 c).owesAt () t.castSucc from rfl]
  simp only [after0_0, after0_1, after0_2, after0_3, after0_4, after0_5, after0_6, after0_7, after0_8, after0_9, after0_10, after0_11, Window.cut_fill]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%X12, H12⟩⟩
  iapply (sound_kernel c Set.univ _ _ _ _ _ _ _ _ _ _ _ _ _ _ _ _ _ _ _ _ _ _ _ _ _ _ _
    ((cfg0.win 0).fill (cfg0.grid.coords t) d0 (iblk m c 0 t))
    ((cfg0.win 1).fill (cfg0.grid.coords t) d1 (iblk m c 1 t))
    ((cfg0.win 2).fill (cfg0.grid.coords t) d2 (iblk m c 2 t))
    ((cfg0.win 3).fill (cfg0.grid.coords t) d3 (iblk m c 3 t))
    (iblk m c 4 t)
    (iblk m c 5 t)
    (iblk m c 6 t)
    (iblk m c 7 t)
    (iblk m c 8 t)
    (iblk m c 9 t)
    (iblk m c 10 t)
    (iblk m c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexists d0; iexact H0
  isplitl [H1]; · iexists d1; iexact H1
  isplitl [H2]; · iexists d2; iexact H2
  isplitl [H3]; · iexists d3; iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The library's body obligation, at every point, the result's window forgotten. -/
theorem body_obligation (c : Dev nD) :
    BodyObligationLoose (dats (F := F) m 0 c) (defs₀ (F := F)) Variants.none () Set.univ forgets := fun t => by
  rw [bigSep_W0, bigSep_W0]
  exact sound_body m c t

/-! ## The run and the frame -/

set_option backward.isDefEq.respectTransparency.types false in
/-- Every weakly fair execution of the program on the TensorCores terminates, and every final state has every input
    array of the pipeline at its region-entry contents, nothing stated of the result's, and every other unscoped buffer
    at its region-entry contents. -/
theorem run_main : θ_run defs (onTc (τ := τ) (main (F := F))) (s₀ m ρ)
    (Pipeline.RDat.FramePost (cfgs 0) (fun c => (dats m 0 c).toRForget forgets) (V m)) :=
  Pipeline.RDat.θ_run_frame cfgs (0 : Fin 1) launch0 defs₀ Variants.none (fun c => (dats m 0 c).toRForget forgets) m ρ main
    (hbody := fun c => (body_obligation m c).toRForget)
    (hshare := fun c => ((dats m 0 c).toRForget forgets).share_full fun _ => rfl)
    (howed := fun _ _ => rfl) (V := V m) (hmain := hmain m Variants.none) (hA := A_eq m) (hΦ := fun _ _ => rfl)

/-- THE FRAME of the word-level kernel, at any instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  refine (θ_run defs _ _).mono (fun r h c => ?_) (run_main m ρ)
  exact ⟨(Pipeline.RDat.FramePost.arr_in h c 0 rfl).trans ((A_eq m c 0).trans (V_main_arg0 m c)),
      (Pipeline.RDat.FramePost.arr_in h c 1 rfl).trans ((A_eq m c 1).trans (V_main_arg1 m c)),
      (Pipeline.RDat.FramePost.arr_in h c 2 rfl).trans ((A_eq m c 2).trans (V_main_arg2 m c)),
      (Pipeline.RDat.FramePost.arr_in h c 4 rfl).trans ((A_eq m c 4).trans (V_main_arg3 m c)),
      (Pipeline.RDat.FramePost.arr_in h c 3 rfl).trans ((A_eq m c 3).trans (V_main_arg4 m c)),
      ((h c).2 main_arg5 (Pipeline.mem_restRefs_of main_arg5 (by decide) (by decide))).trans (V_main_arg5 m c),
      (Pipeline.RDat.FramePost.arr_in h c 9 rfl).trans ((A_eq m c 9).trans (V_main_arg6 m c)),
      (Pipeline.RDat.FramePost.arr_in h c 10 rfl).trans ((A_eq m c 10).trans (V_main_arg7 m c)),
      (Pipeline.RDat.FramePost.arr_in h c 11 rfl).trans ((A_eq m c 11).trans (V_main_arg8 m c))⟩

end Cert.Kernel.Body

end
-- ==== Proof.LibSageSpec.lean ====
/-
  Dense layers at the extended reals, index by index. A layer's entry (p, q) is a sum over the contracted axis of a row
  of the left matrix against a column of the right one, plus a bias read at the column; a SAGE layer adds two such sums
  (the aggregated neighbours against one weight matrix, the node's own features against another) before the bias. The
  leaky activation is spelt exactly as both programs spell it: a select on `s ≥ 0` between `s` and a constant times `s`.
  A matrix product whose dimension numbers are the plain "rows by columns" ones (contract axis 1 of the left operand with
  axis 0 of the right) reads at (p, q) as that sum, on the MXU into a zero accumulator and on the host alike.
-/
import Idealize.ShloMosaic.PureOps.Ideal
import Idealize.ShloMosaic.PureOps.Ideal.Laws
import Idealize.ShloMosaic.Lib.ValueIdx

noncomputable section

open scoped BigOperators

namespace Idealize.ShloMosaic.SageSpec

open Idealize.ShloMosaic Idealize.ShloMosaic.ValueIdx

/-- An [n × m] matrix of extended reals. -/
abbrev Mat (n m : Nat) : Type := (⟨2, ![n, m]⟩ : Shape).Idx → EReal

/-- Row `p` of `x` against column `q` of `W`. -/
def rowDot {n k m : Nat} (x : Mat n k) (W : Mat k m) (p : Fin n) (q : Fin m) : EReal :=
  ∑ j : Fin k, x (ix2 p j) * W (ix2 j q)

/-- The leaky activation as printed: `s` where `s ≥ 0`, else the slope constant (the f32 nearest 0.01) times `s`. -/
def leakyAt (s : EReal) : EReal :=
  Scalar.select (FloatOps.cmpf (F := Ideal) (φ := .f32) .oge s (Ideal.ofBits .f32 0x00000000#32)) s
    (FloatOps.mulf (F := Ideal) (φ := .f32) (Ideal.ofBits .f32 0x3C23D70A#32) s)

/-- A linear layer: `x · W + b`. -/
def linF {n k m : Nat} (x : Mat n k) (W : Mat k m) (b : Fin m → EReal) : Mat n m :=
  fun i => rowDot x W (i 0) (i 1) + b (i 1)

/-- A SAGE layer: `act (agg · Wl + h · Wr + b)`, the sums grouped as the kernel groups them. -/
def sageF {n k m : Nat} (act : EReal → EReal) (agg h : Mat n k) (Wl Wr : Mat k m) (b : Fin m → EReal) : Mat n m :=
  fun i => act (rowDot agg Wl (i 0) (i 1) + rowDot h Wr (i 0) (i 1) + b (i 1))

/-- The reference groups the bias with the first product: the same extended real (addition of extended reals is
    commutative and associative, infinities included). -/
theorem add_bias_comm (a b c : EReal) : a + c + b = a + b + c := add_right_comm a c b

/-- Dimension numbers of a plain [n × k] · [k × m] product: one contracted axis of extent `k`, the left operand read at
    (row, κ), the right at (κ, column). -/
structure PlainDot {n k m : Nat} (d : DotDims ⟨2, ![n, k]⟩ ⟨2, ![k, m]⟩ ⟨2, ![n, m]⟩) : Prop where
  rank : d.contr.rank = 1
  size : ∀ h : 0 < d.contr.rank, d.contr.size ⟨0, h⟩ = k
  l0 : ∀ (i : (⟨2, ![n, m]⟩ : Shape).Idx) (q : d.contr.Idx), (d.lhsIdx i q 0).val = (i 0).val
  l1 : ∀ (i : (⟨2, ![n, m]⟩ : Shape).Idx) (q : d.contr.Idx) (h : 0 < d.contr.rank), (d.lhsIdx i q 1).val = (q ⟨0, h⟩).val
  r0 : ∀ (i : (⟨2, ![n, m]⟩ : Shape).Idx) (q : d.contr.Idx) (h : 0 < d.contr.rank), (d.rhsIdx i q 0).val = (q ⟨0, h⟩).val
  r1 : ∀ (i : (⟨2, ![n, m]⟩ : Shape).Idx) (q : d.contr.Idx), (d.rhsIdx i q 1).val = (i 1).val

section
variable {n k m : Nat} {d : DotDims ⟨2, ![n, k]⟩ ⟨2, ![k, m]⟩ ⟨2, ![n, m]⟩}

/-- The contracted sum of a plain product, re-indexed by the contracted axis's coordinate. -/
theorem PlainDot.sum_eq (hd : PlainDot d) (a : Mat n k) (w : Mat k m) (j : (⟨2, ![n, m]⟩ : Shape).Idx) :
    ∑ q : d.contr.Idx, a (d.lhsIdx j q) * w (d.rhsIdx j q) = rowDot a w (j 0) (j 1) := by
  have h0 : 0 < d.contr.rank := by rw [hd.rank]; exact Nat.one_pos
  unfold rowDot
  rw [← Equiv.sum_comp (contrEquiv1 d k hd.rank (hd.size _)).symm]
  refine Finset.sum_congr rfl fun κ _ => ?_
  have hk := contrEquiv1_symm_val d k hd.rank (hd.size _) κ
  have el : d.lhsIdx j ((contrEquiv1 d k hd.rank (hd.size _)).symm κ) = ix2 (j 0) κ := funext fun a => Fin.ext (by
    match a with
    | ⟨0, _⟩ => exact hd.l0 _ _
    | ⟨1, _⟩ => exact (hd.l1 _ _ h0).trans hk)
  have er : d.rhsIdx j ((contrEquiv1 d k hd.rank (hd.size _)).symm κ) = ix2 κ (j 1) := funext fun a => Fin.ext (by
    match a with
    | ⟨0, _⟩ => exact (hd.r0 _ _ h0).trans hk
    | ⟨1, _⟩ => exact hd.r1 _ _)
  rw [el, er] <;> rfl

/-- The MXU's product into a zero accumulator, at (p, q): row `p` against column `q`. Whatever the operands' formats:
    at the extended reals a change of format is the identity. -/
theorem matmul_zero_at {φ₁ φ₂ : FTy} (hd : PlainDot d) (prec : Option ContractPrecision) (a : FVec Ideal ⟨2, ![n, k]⟩ φ₁)
    (w : FVec Ideal ⟨2, ![k, m]⟩ φ₂) (j : (⟨2, ![n, m]⟩ : Shape).Idx) :
    FloatOps.matmul d prec a w (constant ⟨2, ![n, m]⟩ .f32 0x00000000#32) j = rowDot (fun i => a i) (fun i => w i) (j 0) (j 1) := by
  rw [Ideal.matmul_constant_zero_apply]
  exact hd.sum_eq (fun i => a i) (fun i => w i) j

/-- The host's `dot_general`, at (p, q): the same sum. -/
theorem dotGeneral_at {φ₁ φ₂ : FTy} (hd : PlainDot d) (prec : Option ContractPrecision) (a : FVec Ideal ⟨2, ![n, k]⟩ φ₁)
    (w : FVec Ideal ⟨2, ![k, m]⟩ φ₂) (j : (⟨2, ![n, m]⟩ : Shape).Idx) :
    Host.dotGeneral d prec a w j = rowDot (fun i => a i) (fun i => w i) (j 0) (j 1) := by
  simp only [Host.dotGeneral]
  rw [Ideal.dotGeneral_apply]
  exact hd.sum_eq (fun i => a i) (fun i => w i) j

end

end Idealize.ShloMosaic.SageSpec

end
-- ==== Proof.Spec.lean ====
/-
  The edge model, one edge at a time, over the extended reals.

  For one edge the inputs are four rows of 128 numbers: the source node's features, the destination node's, the edge's
  own, and the features of the graph the edge belongs to. The first layer multiplies their concatenation (512 numbers)
  by a 512 x 128 matrix, adds a bias and clips below at zero; the second layer multiplies the 128 clipped numbers by a
  128 x 128 matrix and adds a bias. Because the concatenation is of four 128-blocks, the 512-term sum of the first
  layer is the sum of four 128-term sums, each block against its own 128 rows of the matrix: that is associativity and
  commutativity of addition only, and holds of every extended real.

  The graph's row is selected by the edge's graph number g. Selecting row g of a 512-row table is the same as summing
  all 512 rows weighted by the indicator of g: every weight but one is 0, and 0 times any extended real is 0.
-/
import Idealize.ShloMosaic.PureOps.Ideal
import Idealize.ShloMosaic.PureOps.Ideal.Laws
import Idealize.ShloMosaic.Lib.ValueIdx
import proofs.«408455_j83760452207461_1_alg».proof.Proof.LibSageSpec

noncomputable section

open scoped BigOperators

namespace Cert.EdgeMlp

open Idealize.ShloMosaic Idealize.ShloMosaic.ValueIdx Idealize.ShloMosaic.SageSpec

/-- The zero both programs clip against: the f32 word 0 read as an extended real. -/
abbrev zeroE : EReal := Ideal.ofBits .f32 0x00000000#32

/-- A row of k numbers against column q of a k x m matrix. -/
def vecDot {k m : Nat} (x : Fin k → EReal) (W : Mat k m) (q : Fin m) : EReal :=
  ∑ j : Fin k, x j * W (ix2 j q)

/-- Row p of a matrix. -/
def rowOf {n k : Nat} (x : Mat n k) (p : Fin n) : Fin k → EReal := fun j => x (ix2 p j)

/-- A matrix product's entry (p, q) is row p against column q. -/
theorem rowDot_eq_vecDot {n k m : Nat} (x : Mat n k) (W : Mat k m) (p : Fin n) (q : Fin m) :
    rowDot x W p q = vecDot (rowOf x p) W q := rfl

/-- The first layer before clipping, the four blocks each against its own 128 x 128 matrix, summed left to right. -/
def preRow (s d e g : Fin 128 → EReal) (Ws Wd We Wu : Mat 128 128) (b1 : Fin 128 → EReal) (q : Fin 128) : EReal :=
  vecDot s Ws q + vecDot d Wd q + vecDot e We q + vecDot g Wu q + b1 q

/-- The first layer: clipped below at zero. -/
def hidRow (s d e g : Fin 128 → EReal) (Ws Wd We Wu : Mat 128 128) (b1 : Fin 128 → EReal) (q : Fin 128) : EReal :=
  max (preRow s d e g Ws Wd We Wu b1 q) zeroE

/-- Both layers, for one edge. -/
def mlpRow (s d e g : Fin 128 → EReal) (Ws Wd We Wu : Mat 128 128) (b1 : Fin 128 → EReal) (W2 : Mat 128 128)
    (b2 : Fin 128 → EReal) (q : Fin 128) : EReal :=
  vecDot (hidRow s d e g Ws Wd We Wu b1) W2 q + b2 q

/-- The indicator of graph number w over the 512 graphs, as the kernel makes it: compare w with each g, widen the bit to
    a word, read the word as a number. -/
def onehotRow (w : BitVec 32) : Fin 512 → EReal := fun g =>
  FloatOps.sitofp (F := Ideal) .f32 ((IntOp.cmpi .eq w (BitVec.ofNat 32 g.val)).setWidth 32)

/-- The graph's row selected by the indicator: all 512 rows of the table, weighted. -/
def pickRow (w : BitVec 32) (U : Mat 512 128) : Fin 128 → EReal := fun j => vecDot (onehotRow w) U j

/-- Rows o .. o+127 of a 512-row matrix. -/
def sliceRows (W1 : Mat 512 128) (o : Nat) (h : o + 128 ≤ 512) : Mat 128 128 :=
  fun i => W1 (ix2 ⟨o + (i 0).val, by have := (i 0).isLt; simp only [Matrix.cons_val_zero] at this; omega⟩ ⟨(i 1).val, by have := (i 1).isLt; simpa using this⟩)

/-- THE RESULT, entry (edge, q): both layers of the edge's three own rows and its graph's row. -/
def G (src dst edge : Mat 400000 128) (U : Mat 512 128) (batch : Fin 400000 → BitVec 32) (W1 : Mat 512 128)
    (b1 : Fin 128 → EReal) (W2 : Mat 128 128) (b2 : Fin 128 → EReal) : Mat 400000 128 := fun i =>
  mlpRow (rowOf src ⟨(i 0).val, by have := (i 0).isLt; simpa using this⟩) (rowOf dst ⟨(i 0).val, by have := (i 0).isLt; simpa using this⟩)
    (rowOf edge ⟨(i 0).val, by have := (i 0).isLt; simpa using this⟩) (pickRow (batch ⟨(i 0).val, by have := (i 0).isLt; simpa using this⟩) U)
    (sliceRows W1 0 (by omega)) (sliceRows W1 128 (by omega)) (sliceRows W1 256 (by omega)) (sliceRows W1 384 (by omega))
    b1 W2 b2 ⟨(i 1).val, by have := (i 1).isLt; simpa using this⟩

/-- The concatenation of four rows of 128. -/
def catRow (s d e g : Fin 128 → EReal) : Fin 512 → EReal := fun κ =>
  if h : κ.val < 128 then s ⟨κ.val, h⟩
  else if h2 : κ.val < 256 then d ⟨κ.val - 128, by omega⟩
  else if h3 : κ.val < 384 then e ⟨κ.val - 256, by omega⟩
  else g ⟨κ.val - 384, by omega⟩

/-- Both layers as the reference groups them: one 512-term sum in the first layer. -/
def refRow (s d e g : Fin 128 → EReal) (W1 : Mat 512 128) (b1 : Fin 128 → EReal) (W2 : Mat 128 128)
    (b2 : Fin 128 → EReal) (q : Fin 128) : EReal :=
  vecDot (fun k => max (vecDot (catRow s d e g) W1 k + b1 k) zeroE) W2 q + b2 q

end Cert.EdgeMlp

end
-- ==== Proof.IdealData.lean ====
/-
  What the pipeline's staging buffers hold after the body at each of the 98 grid points, at the extended reals.

  Point t handles edges 4096·t .. 4096·t + 4095; the last point's block runs 1408 rows past the 400000 edges, and there
  the buffers hold numbers nothing names. On the rows inside the arrays: the three feature windows and the graph-number
  window hold their arrays' rows; the eight parameter windows hold their whole arrays (the graph table, the four
  128-row slices of the first layer's matrix, the two biases, the second layer's matrix); and the result window holds
  the edge model's result for those edges — stated here directly as the result array G read through the point's block.
-/
import proofs.«408455_j83760452207461_1_alg».proof.Proof.Gen.KernelIdeal.Frame
import proofs.«408455_j83760452207461_1_alg».proof.Proof.Spec
import Idealize.ShloMosaic.Lib.Pipeline.Kit

noncomputable section

namespace Cert.KernelIdeal.Data

open Cert.KernelIdeal Cert.KernelIdeal.Gen Cert.EdgeMlp

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (m : (ℓ : Loc nD τ sig) → Buf (Elt Ideal) ℓ)

/-- The result array: the edge model of the argument arrays as launched. -/
def Gfin (c : Dev nD) : Buf (Elt Ideal) ((c : Thread nD τ).loc main_v4) :=
  G (m ((c : Thread nD τ).loc main_arg0)) (m ((c : Thread nD τ).loc main_arg1)) (m ((c : Thread nD τ).loc main_arg2))
    (m ((c : Thread nD τ).loc main_arg3)) (fun e => m ((c : Thread nD τ).loc main_arg4) (ix1 e))
    (m ((c : Thread nD τ).loc main_arg5)) (fun k => m ((c : Thread nD τ).loc main_arg6) (ix1 k))
    (m ((c : Thread nD τ).loc main_arg7)) (fun k => m ((c : Thread nD τ).loc main_arg8) (ix1 k))

/-- The rows of G that point t's block holds (4096 rows, 2688 at the last point). -/
def outRows (c : Dev nD) (t : Fin cfg0.N) : (win0_12.xblock (grid0.coords t)).Idx → Elt Ideal .f32 :=
  (win0_12.blk t).view.read (Elt Ideal) (Gfin m c)

/-- The proof data: the arrays as the region finds them; after the body each input window's buffer at its block (a
    clipped one filled out with zeros past the array's end, where nothing is claimed) and the result's at G's rows. -/
def dats (_ : Fin 1) (c : Dev nD) : Dat τ (Elt Ideal) Unit ℕ (UR sig nD τ) ℕ cfg0 c where
  A w := V m c (Pipeline.arrRef spec0 w)
  after w t := match w with
    | ⟨0, _⟩ => win0_0.fill (grid0.coords t) (fun _ => zeroE) (iblk m c 0 t)
    | ⟨1, _⟩ => win0_1.fill (grid0.coords t) (fun _ => zeroE) (iblk m c 1 t)
    | ⟨2, _⟩ => win0_2.fill (grid0.coords t) (fun _ => zeroE) (iblk m c 2 t)
    | ⟨3, _⟩ => win0_3.fill (grid0.coords t) (fun _ => (0#32 : BitVec 32)) (iblk m c 3 t)
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => win0_12.fill (grid0.coords t) (fun _ => zeroE) (outRows m c t)
  Φ _ := Pipeline.ΦA spec0 c
  q _ := fullShare
  owed _ := 0

theorem A_eq (c : Dev nD) (w : Fin cfg0.W) : (dats m 0 c).A w = V m c (Pipeline.arrRef spec0 w) := rfl

end Cert.KernelIdeal.Data

end
-- ==== Proof.IdealPayload.lean ====
/-
  The kernel body's arithmetic for one block of 4096 edges, read at one entry (p, q), at the extended reals: it is the
  edge model of row p of the three feature blocks and of the graph table's rows weighted by the indicator of the
  p-th graph number. A change of float format is the identity at the extended reals, a product into a zero accumulator
  is a row against a column, and the widened comparison bit read as a number is the indicator.
-/
import proofs.«408455_j83760452207461_1_alg».proof.Proof.Gen.KernelIdeal.Skeleton
import proofs.«408455_j83760452207461_1_alg».proof.Proof.Spec
import proofs.«408455_j83760452207461_1_alg».proof.Proof.LibSageSpec
import Idealize.ShloMosaic.Lib.Pipeline.Value
import Idealize.ShloMosaic.Lib.ValueLayout

noncomputable section

namespace Cert.KernelIdeal.PayloadAt

open Cert.KernelIdeal Cert.KernelIdeal.Gen Cert.EdgeMlp
open Idealize.ShloMosaic Idealize.ShloMosaic.ValueIdx Idealize.ShloMosaic.SageSpec

/-- The table product's left operand is read at (row, κ). -/
theorem lhs_big_0 (i : S4096x128.Idx) (q : dot_S4096x512_S512x128_S4096x128_1_0_0_1_n_n.contr.Idx) :
    (dot_S4096x512_S512x128_S4096x128_1_0_0_1_n_n.lhsIdx i q 0).val = (i 0).val := by
  unfold DotDims.lhsIdx
  rw [dif_neg (show ¬(0 : Fin S4096x512.rank) ∈ dot_S4096x512_S512x128_S4096x128_1_0_0_1_n_n.lhsBatch by decide), dif_pos (show (0 : Fin S4096x512.rank) ∈ dot_S4096x512_S512x128_S4096x128_1_0_0_1_n_n.lhsNonContracting by decide)]
  rfl
theorem lhs_big_1 (i : S4096x128.Idx) (q : dot_S4096x512_S512x128_S4096x128_1_0_0_1_n_n.contr.Idx) :
    (dot_S4096x512_S512x128_S4096x128_1_0_0_1_n_n.lhsIdx i q 1).val = (q ⟨0, by decide⟩).val :=
  dot_S4096x512_S512x128_S4096x128_1_0_0_1_n_n.lhsIdx_val_of_single rfl i q
theorem rhs_big_0 (i : S4096x128.Idx) (q : dot_S4096x512_S512x128_S4096x128_1_0_0_1_n_n.contr.Idx) :
    (dot_S4096x512_S512x128_S4096x128_1_0_0_1_n_n.rhsIdx i q 0).val = (q ⟨0, by decide⟩).val :=
  dot_S4096x512_S512x128_S4096x128_1_0_0_1_n_n.rhsIdx_val_of_single rfl i q
theorem rhs_big_1 (i : S4096x128.Idx) (q : dot_S4096x512_S512x128_S4096x128_1_0_0_1_n_n.contr.Idx) :
    (dot_S4096x512_S512x128_S4096x128_1_0_0_1_n_n.rhsIdx i q 1).val = (i 1).val := by
  unfold DotDims.rhsIdx
  rw [dif_neg (show ¬(1 : Fin S512x128.rank) ∈ dot_S4096x512_S512x128_S4096x128_1_0_0_1_n_n.rhsBatch by decide), dif_pos (show (1 : Fin S512x128.rank) ∈ dot_S4096x512_S512x128_S4096x128_1_0_0_1_n_n.rhsNonContracting by decide)]
  rfl

theorem plain_big : PlainDot dot_S4096x512_S512x128_S4096x128_1_0_0_1_n_n where
  rank := rfl
  size := fun _ => rfl
  l0 := lhs_big_0
  l1 := fun i q _ => lhs_big_1 i q
  r0 := fun i q _ => rhs_big_0 i q
  r1 := rhs_big_1

theorem lhs_sq_0 (i : S4096x128.Idx) (q : dot_S4096x128_S128x128_S4096x128_1_0_0_1_n_n.contr.Idx) :
    (dot_S4096x128_S128x128_S4096x128_1_0_0_1_n_n.lhsIdx i q 0).val = (i 0).val := by
  unfold DotDims.lhsIdx
  rw [dif_neg (show ¬(0 : Fin S4096x128.rank) ∈ dot_S4096x128_S128x128_S4096x128_1_0_0_1_n_n.lhsBatch by decide), dif_pos (show (0 : Fin S4096x128.rank) ∈ dot_S4096x128_S128x128_S4096x128_1_0_0_1_n_n.lhsNonContracting by decide)]
  rfl
theorem lhs_sq_1 (i : S4096x128.Idx) (q : dot_S4096x128_S128x128_S4096x128_1_0_0_1_n_n.contr.Idx) :
    (dot_S4096x128_S128x128_S4096x128_1_0_0_1_n_n.lhsIdx i q 1).val = (q ⟨0, by decide⟩).val :=
  dot_S4096x128_S128x128_S4096x128_1_0_0_1_n_n.lhsIdx_val_of_single rfl i q
theorem rhs_sq_0 (i : S4096x128.Idx) (q : dot_S4096x128_S128x128_S4096x128_1_0_0_1_n_n.contr.Idx) :
    (dot_S4096x128_S128x128_S4096x128_1_0_0_1_n_n.rhsIdx i q 0).val = (q ⟨0, by decide⟩).val :=
  dot_S4096x128_S128x128_S4096x128_1_0_0_1_n_n.rhsIdx_val_of_single rfl i q
theorem rhs_sq_1 (i : S4096x128.Idx) (q : dot_S4096x128_S128x128_S4096x128_1_0_0_1_n_n.contr.Idx) :
    (dot_S4096x128_S128x128_S4096x128_1_0_0_1_n_n.rhsIdx i q 1).val = (i 1).val := by
  unfold DotDims.rhsIdx
  rw [dif_neg (show ¬(1 : Fin S128x128.rank) ∈ dot_S4096x128_S128x128_S4096x128_1_0_0_1_n_n.rhsBatch by decide), dif_pos (show (1 : Fin S128x128.rank) ∈ dot_S4096x128_S128x128_S4096x128_1_0_0_1_n_n.rhsNonContracting by decide)]
  rfl

theorem plain_sq : PlainDot dot_S4096x128_S128x128_S4096x128_1_0_0_1_n_n where
  rank := rfl
  size := fun _ => rfl
  l0 := lhs_sq_0
  l1 := fun i q _ => lhs_sq_1 i q
  r0 := fun i q _ => rhs_sq_0 i q
  r1 := rhs_sq_1

section Layout
variable {α : Type}

/-- A column [a] viewed [a, 1] and spread over b columns reads, at (p, g), the column at p. -/
theorem col_spread_apply {a b : ℕ} (ha : a ≠ 1) (v : (⟨1, ![a]⟩ : Shape).Idx → α)
    (h1 : (⟨1, ![a]⟩ : Shape).ShapeCasts ⟨2, ![a, 1]⟩) (h2 : (⟨2, ![a, 1]⟩ : Shape).Broadcasts ⟨2, ![a, b]⟩)
    (p : Fin a) (g : Fin b) :
    broadcastTo ⟨2, ![a, b]⟩ (shapeCast ⟨2, ![a, 1]⟩ v h1) h2 (ix2 p g) = v (ix1 p) := by
  refine (broadcastTo_apply (shapeCast ⟨2, ![a, 1]⟩ v h1) h2 (ix2 p g) (ix2 p (0 : Fin 1)) fun ax => ?_).trans ?_
  · match ax with
    | ⟨0, _⟩ =>
      show p.val = if a = 1 then 0 else p.val
      rw [if_neg ha]
    | ⟨1, _⟩ => rfl
  · exact shapeCast_apply v h1 _ _ (by
      rw [Shape.rowMajor_val_two, Shape.rowMajor_val_one]
      show p.val = p.val * 1 + 0
      rw [Nat.mul_one, Nat.add_zero])

/-- A row [b] viewed [1, b] and spread over a rows reads, at (p, q), the row at q. -/
theorem row_spread_apply {a b : ℕ} (v : (⟨1, ![b]⟩ : Shape).Idx → α)
    (h1 : (⟨1, ![b]⟩ : Shape).ShapeCasts ⟨2, ![1, b]⟩) (h2 : (⟨2, ![1, b]⟩ : Shape).Broadcasts ⟨2, ![a, b]⟩)
    (p : Fin a) (q : Fin b) :
    broadcastTo ⟨2, ![a, b]⟩ (shapeCast ⟨2, ![1, b]⟩ v h1) h2 (ix2 p q) = v (ix1 q) :=
  (broadcastTo_1b_ab_apply _ h2 p q).trans (shapeCast_a_1a_apply v h1 0 q)

end Layout

/-- The column counter along axis 1 reads, at (p, g), the word of g. -/
theorem iota_cols_apply (h : S4096x512.Iotas .tc 32 [1]) (p : Fin 4096) (g : Fin 512) :
    iota .tc S4096x512 32 [1] h (ix2 p g) = BitVec.ofNat 32 g.val :=
  iota_single_apply .tc S4096x512 32 1 h (ix2 p g)

/-- The indicator matrix as the kernel builds it (spread the graph numbers over 512 columns, compare with the column
    counter, widen the bit, read it as a number, change the format) reads, at (p, g), the indicator of the p-th graph
    number at g. -/
theorem onehot_at (v0 : Vec Ideal S4096 .i32) (h1 : S4096.ShapeCasts S4096x1) (h2 : S4096x1.Broadcasts S4096x512)
    (h3 : S4096x512.Iotas .tc 32 [1]) (hn : 1 < 32) (hb : FTy.bits .bf16 < FTy.bits .f32) (p : Fin 4096) (g : Fin 512) :
    truncf (F := Ideal) .bf16 (sitofp .f32 (extui 32 (cmpi .eq (broadcastTo S4096x512 (shapeCast S4096x1 v0 h1) h2)
      (iota .tc S4096x512 32 [1] h3)) hn)) hb (ix2 p g) = onehotRow (v0 (ix1 p)) g := by
  have e1 : broadcastTo S4096x512 (shapeCast S4096x1 v0 h1) h2 (ix2 p g) = v0 (ix1 p) :=
    col_spread_apply (by decide) v0 h1 h2 p g
  have e2 := iota_cols_apply h3 p g
  show FloatOps.sitofp (F := Ideal) .f32 ((IntOp.cmpi .eq (broadcastTo S4096x512 (shapeCast S4096x1 v0 h1) h2 (ix2 p g))
    (iota .tc S4096x512 32 [1] h3 (ix2 p g))).setWidth 32) = _
  rw [e1, e2]
  rfl

/-- A product of a block of rows with a square matrix into a zero accumulator, both operands after a change of format
    and the matrix after a cast to its own shape: row p against column q. -/
theorem sq_at (a : FVec Ideal S4096x128 .f32) (w : FVec Ideal S128x128 .f32) (hb : FTy.bits .bf16 < FTy.bits .f32)
    (hc : S128x128.ShapeCasts S128x128) (p : Fin 4096) (q : Fin 128) :
    FloatOps.matmul dot_S4096x128_S128x128_S4096x128_1_0_0_1_n_n none (truncf .bf16 a hb)
      (truncf .bf16 (shapeCast S128x128 w hc) hb) (constant S4096x128 .f32 0x00000000#32) (ix2 p q)
      = vecDot (rowOf a p) w q := by
  rw [shapeCast_self]
  exact matmul_zero_at plain_sq none _ _ (ix2 p q)

/-- The same with the matrix not cast. -/
theorem sq_at' (a : FVec Ideal S4096x128 .f32) (w : FVec Ideal S128x128 .f32) (hb : FTy.bits .bf16 < FTy.bits .f32)
    (p : Fin 4096) (q : Fin 128) :
    FloatOps.matmul dot_S4096x128_S128x128_S4096x128_1_0_0_1_n_n none (truncf .bf16 a hb)
      (truncf .bf16 w hb) (constant S4096x128 .f32 0x00000000#32) (ix2 p q)
      = vecDot (rowOf a p) w q :=
  matmul_zero_at plain_sq none _ _ (ix2 p q)

/-- The indicator matrix times the table, at (p, j): the table's rows weighted by the indicator of the p-th graph number. -/
theorem pick_at (v0 : Vec Ideal S4096 .i32) (v8 : FVec Ideal S512x128 .f32) (h1 : S4096.ShapeCasts S4096x1)
    (h2 : S4096x1.Broadcasts S4096x512) (h3 : S4096x512.Iotas .tc 32 [1]) (hn : 1 < 32)
    (hb : FTy.bits .bf16 < FTy.bits .f32) (p : Fin 4096) (j : Fin 128) :
    FloatOps.matmul dot_S4096x512_S512x128_S4096x128_1_0_0_1_n_n none
      (truncf (F := Ideal) .bf16 (sitofp .f32 (extui 32 (cmpi .eq (broadcastTo S4096x512 (shapeCast S4096x1 v0 h1) h2)
        (iota .tc S4096x512 32 [1] h3)) hn)) hb)
      (truncf .bf16 v8 hb) (constant S4096x128 .f32 0x00000000#32) (ix2 p j) = pickRow (v0 (ix1 p)) v8 j := by
  refine (matmul_zero_at plain_big none _ _ (ix2 p j)).trans ?_
  exact Finset.sum_congr rfl fun g _ => congrArg (· * v8 (ix2 g j)) (onehot_at v0 h1 h2 h3 hn hb p g)

/-- The first payload at (p, q): the four blocks each against its own matrix, summed left to right. -/
theorem pay2_at (v0 : Vec Ideal S4096 .i32) (v8 : Vec Ideal S512x128 .f32) (v11 v13 v15 : Vec Ideal S4096x128 .f32)
    (v18 v21 v24 v27 : Vec Ideal S128x128 .f32) (p : Fin 4096) (q : Fin 128) :
    k0_pay2 (F := Ideal) v0 v8 v11 v13 v15 v18 v21 v24 v27 (ix2 p q)
      = vecDot (rowOf v11 p) v18 q + vecDot (rowOf v13 p) v21 q + vecDot (rowOf v15 p) v24 q
          + vecDot (pickRow (v0 (ix1 p)) v8) v27 q := by
  unfold k0_pay2
  refine congrArg₂ (· + ·) (congrArg₂ (· + ·) (congrArg₂ (· + ·) ?_ ?_) ?_) ?_
  · exact sq_at v11 v18 _ _ p q
  · exact sq_at v13 v21 _ _ p q
  · exact sq_at v15 v24 _ _ p q
  · refine (sq_at _ v27 _ _ p q).trans ?_
    exact congrArg (fun x => vecDot x v27 q) (funext fun j => pick_at v0 v8 _ _ _ _ _ p j)

/-- The second payload at (p, q), over any first payload: bias, clip below at zero, the second matrix, bias. -/
theorem pay1_at (v36 : FVec Ideal S4096x128 .f32) (v37 : Vec Ideal S128 .f32) (v44 : Vec Ideal S128x128 .f32)
    (v47 : Vec Ideal S128 .f32) (p : Fin 4096) (q : Fin 128) :
    k0_pay1 (F := Ideal) v36 v37 v44 v47 (ix2 p q)
      = vecDot (fun k => max (v36 (ix2 p k) + v37 (ix1 k)) zeroE) v44 q + v47 (ix1 q) := by
  unfold k0_pay1
  refine congrArg₂ (· + ·) ?_ (row_spread_apply v47 _ _ p q)
  refine (sq_at' _ v44 _ p q).trans ?_
  refine congrArg (fun x => vecDot x v44 q) (funext fun k => ?_)
  exact congrArg (fun t => max (v36 (ix2 p k) + t) zeroE) (row_spread_apply v37 _ _ p k)

/-- THE BLOCK'S ENTRY (p, q): both layers of row p. -/
theorem pay_at (v0 : Vec Ideal S4096 .i32) (v8 : Vec Ideal S512x128 .f32) (v11 v13 v15 : Vec Ideal S4096x128 .f32)
    (v18 v21 v24 v27 : Vec Ideal S128x128 .f32) (v37 : Vec Ideal S128 .f32) (v44 : Vec Ideal S128x128 .f32)
    (v47 : Vec Ideal S128 .f32) (p : Fin 4096) (q : Fin 128) :
    k0_pay1 (F := Ideal) (k0_pay2 (F := Ideal) v0 v8 v11 v13 v15 v18 v21 v24 v27) v37 v44 v47 (ix2 p q)
      = mlpRow (rowOf v11 p) (rowOf v13 p) (rowOf v15 p) (pickRow (v0 (ix1 p)) v8) v18 v21 v24 v27
          (fun k => v37 (ix1 k)) v44 (fun k => v47 (ix1 k)) q := by
  refine (pay1_at _ v37 v44 v47 p q).trans ?_
  refine congrArg (fun x => vecDot x v44 q + v47 (ix1 q)) (funext fun k => ?_)
  exact congrArg (fun t => max (t + v37 (ix1 k)) zeroE) (pay2_at v0 v8 v11 v13 v15 v18 v21 v24 v27 p k)

end Cert.KernelIdeal.PayloadAt

end
-- ==== Proof.IdealBlock.lean ====
/-
  On the rows inside the arrays, what the body computes at a grid point is G's rows there, whatever stands in the
  staging buffers past the arrays' end: entry (p, q) of the block is the edge model of row p of each input block, and for
  p inside the arrays those rows are the arrays' rows 4096·t + p. The parameter windows hold their whole arrays at every
  point; four of them are the 128-row slices of the first layer's matrix that @main cuts before the call.
-/
import proofs.«408455_j83760452207461_1_alg».proof.Proof.IdealData
import proofs.«408455_j83760452207461_1_alg».proof.Proof.IdealPayload
import proofs.«408455_j83760452207461_1_alg».proof.Proof.Gen.KernelIdeal.Skeleton
import Idealize.ShloMosaic.Lib.Pipeline.Value
import Idealize.ShloMosaic.Lib.StableHlo.Run

set_option maxRecDepth 16384

noncomputable section

namespace Cert.KernelIdeal.Block

open Cert.KernelIdeal Cert.KernelIdeal.Gen Cert.KernelIdeal.Data Cert.EdgeMlp Cert.KernelIdeal.PayloadAt

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.SageSpec

variable (m : (ℓ : Loc nD τ sig) → Buf (Elt Ideal) ℓ)

/-! ## Where the blocks lie, decided over the 98 points -/

/-- The three feature windows, the graph-number window and the result window start at row 4096·t and move
    min 4096 (400000 − 4096·t) rows (of all 128 columns). -/
theorem rows_at : ∀ t : Fin cfg0.N,
    (win0_0.index t 0 = t.val ∧ win0_0.index t 1 = 0 ∧ win0_0.xsize (grid0.coords t) 0 = min 4096 (400000 - 4096 * t.val) ∧ win0_0.xsize (grid0.coords t) 1 = 128)
    ∧ (win0_1.index t 0 = t.val ∧ win0_1.index t 1 = 0 ∧ win0_1.xsize (grid0.coords t) 0 = min 4096 (400000 - 4096 * t.val) ∧ win0_1.xsize (grid0.coords t) 1 = 128)
    ∧ (win0_2.index t 0 = t.val ∧ win0_2.index t 1 = 0 ∧ win0_2.xsize (grid0.coords t) 0 = min 4096 (400000 - 4096 * t.val) ∧ win0_2.xsize (grid0.coords t) 1 = 128)
    ∧ (win0_3.index t 0 = t.val ∧ win0_3.xsize (grid0.coords t) 0 = min 4096 (400000 - 4096 * t.val))
    ∧ (win0_12.index t 0 = t.val ∧ win0_12.index t 1 = 0 ∧ win0_12.xsize (grid0.coords t) 0 = min 4096 (400000 - 4096 * t.val) ∧ win0_12.xsize (grid0.coords t) 1 = 128) :=
  (by decide +kernel : ∀ t : Fin grid0.N,
    (win0_0.index t 0 = t.val ∧ win0_0.index t 1 = 0 ∧ win0_0.xsize (grid0.coords t) 0 = min 4096 (400000 - 4096 * t.val) ∧ win0_0.xsize (grid0.coords t) 1 = 128)
    ∧ (win0_1.index t 0 = t.val ∧ win0_1.index t 1 = 0 ∧ win0_1.xsize (grid0.coords t) 0 = min 4096 (400000 - 4096 * t.val) ∧ win0_1.xsize (grid0.coords t) 1 = 128)
    ∧ (win0_2.index t 0 = t.val ∧ win0_2.index t 1 = 0 ∧ win0_2.xsize (grid0.coords t) 0 = min 4096 (400000 - 4096 * t.val) ∧ win0_2.xsize (grid0.coords t) 1 = 128)
    ∧ (win0_3.index t 0 = t.val ∧ win0_3.xsize (grid0.coords t) 0 = min 4096 (400000 - 4096 * t.val))
    ∧ (win0_12.index t 0 = t.val ∧ win0_12.index t 1 = 0 ∧ win0_12.xsize (grid0.coords t) 0 = min 4096 (400000 - 4096 * t.val) ∧ win0_12.xsize (grid0.coords t) 1 = 128))

/-- The eight parameter windows sit at block (0, 0) — or (0) — at every point. -/
theorem params_at : ∀ t : Fin cfg0.N,
    (∀ a, win0_4.index t a = 0) ∧ (∀ a, win0_5.index t a = 0) ∧ (∀ a, win0_6.index t a = 0) ∧ (∀ a, win0_7.index t a = 0)
    ∧ (∀ a, win0_8.index t a = 0) ∧ (∀ a, win0_9.index t a = 0) ∧ (∀ a, win0_10.index t a = 0) ∧ (∀ a, win0_11.index t a = 0) :=
  (by decide +kernel : ∀ t : Fin grid0.N,
    (∀ a, win0_4.index t a = 0) ∧ (∀ a, win0_5.index t a = 0) ∧ (∀ a, win0_6.index t a = 0) ∧ (∀ a, win0_7.index t a = 0)
    ∧ (∀ a, win0_8.index t a = 0) ∧ (∀ a, win0_9.index t a = 0) ∧ (∀ a, win0_10.index t a = 0) ∧ (∀ a, win0_11.index t a = 0))

/-! ## A clipped window's buffer on a row inside the array -/

/-- The source features' buffer, filled out with anything past the array's end, holds on a row p inside the array the
    array's row 4096·t + p. -/
theorem src_row (c : Dev nD) (t : Fin cfg0.N) (d : S4096x128.Idx → Elt Ideal .f32) (p : Fin 4096)
    (hp : p.val < min 4096 (400000 - 4096 * t.val)) (hr : 4096 * t.val + p.val < 400000) :
    rowOf (win0_0.fill (grid0.coords t) d (iblk m c 0 t)) p
      = rowOf (m ((c : Thread nD τ).loc main_arg0)) ⟨4096 * t.val + p.val, hr⟩ := by
  obtain ⟨⟨h0, h1, hx0, hx1⟩, -⟩ := rows_at t
  funext k
  show win0_0.fill (grid0.coords t) d (iblk m c 0 t) (ix2 p k) = _
  have hmv : win0_0.moved (grid0.coords t) (ix2 p k) = true := (win0_0.moved_iff _ _).mpr fun a => by
    match a with
    | ⟨0, _⟩ => show p.val < win0_0.xsize (grid0.coords t) 0; rw [hx0]; exact hp
    | ⟨1, _⟩ => show k.val < win0_0.xsize (grid0.coords t) 1; rw [hx1]; exact k.isLt
  unfold Window.fill
  rw [dif_pos hmv]
  show V m c main_arg0 (((cfg0.win 0).blk t).view.emb _) = m ((c : Thread nD τ).loc main_arg0) (ix2 ⟨4096 * t.val + p.val, hr⟩ k)
  rw [V_main_arg0]
  refine congrArg _ (funext fun a => Fin.ext ?_)
  match a with
  | ⟨0, _⟩ => show win0_0.index t 0 * 4096 + 1 * p.val = 4096 * t.val + p.val; rw [h0]; omega
  | ⟨1, _⟩ => show win0_0.index t 1 * 128 + 1 * k.val = k.val; rw [h1]; omega

/-- The destination features' buffer likewise. -/
theorem dst_row (c : Dev nD) (t : Fin cfg0.N) (d : S4096x128.Idx → Elt Ideal .f32) (p : Fin 4096)
    (hp : p.val < min 4096 (400000 - 4096 * t.val)) (hr : 4096 * t.val + p.val < 400000) :
    rowOf (win0_1.fill (grid0.coords t) d (iblk m c 1 t)) p
      = rowOf (m ((c : Thread nD τ).loc main_arg1)) ⟨4096 * t.val + p.val, hr⟩ := by
  obtain ⟨h0, h1, hx0, hx1⟩ := (rows_at t).2.1
  funext k
  show win0_1.fill (grid0.coords t) d (iblk m c 1 t) (ix2 p k) = _
  have hmv : win0_1.moved (grid0.coords t) (ix2 p k) = true := (win0_1.moved_iff _ _).mpr fun a => by
    match a with
    | ⟨0, _⟩ => show p.val < win0_1.xsize (grid0.coords t) 0; rw [hx0]; exact hp
    | ⟨1, _⟩ => show k.val < win0_1.xsize (grid0.coords t) 1; rw [hx1]; exact k.isLt
  unfold Window.fill
  rw [dif_pos hmv]
  show V m c main_arg1 (((cfg0.win 1).blk t).view.emb _) = m ((c : Thread nD τ).loc main_arg1) (ix2 ⟨4096 * t.val + p.val, hr⟩ k)
  rw [V_main_arg1]
  refine congrArg _ (funext fun a => Fin.ext ?_)
  match a with
  | ⟨0, _⟩ => show win0_1.index t 0 * 4096 + 1 * p.val = 4096 * t.val + p.val; rw [h0]; omega
  | ⟨1, _⟩ => show win0_1.index t 1 * 128 + 1 * k.val = k.val; rw [h1]; omega

/-- The edge features' buffer likewise. -/
theorem edge_row (c : Dev nD) (t : Fin cfg0.N) (d : S4096x128.Idx → Elt Ideal .f32) (p : Fin 4096)
    (hp : p.val < min 4096 (400000 - 4096 * t.val)) (hr : 4096 * t.val + p.val < 400000) :
    rowOf (win0_2.fill (grid0.coords t) d (iblk m c 2 t)) p
      = rowOf (m ((c : Thread nD τ).loc main_arg2)) ⟨4096 * t.val + p.val, hr⟩ := by
  obtain ⟨h0, h1, hx0, hx1⟩ := (rows_at t).2.2.1
  funext k
  show win0_2.fill (grid0.coords t) d (iblk m c 2 t) (ix2 p k) = _
  have hmv : win0_2.moved (grid0.coords t) (ix2 p k) = true := (win0_2.moved_iff _ _).mpr fun a => by
    match a with
    | ⟨0, _⟩ => show p.val < win0_2.xsize (grid0.coords t) 0; rw [hx0]; exact hp
    | ⟨1, _⟩ => show k.val < win0_2.xsize (grid0.coords t) 1; rw [hx1]; exact k.isLt
  unfold Window.fill
  rw [dif_pos hmv]
  show V m c main_arg2 (((cfg0.win 2).blk t).view.emb _) = m ((c : Thread nD τ).loc main_arg2) (ix2 ⟨4096 * t.val + p.val, hr⟩ k)
  rw [V_main_arg2]
  refine congrArg _ (funext fun a => Fin.ext ?_)
  match a with
  | ⟨0, _⟩ => show win0_2.index t 0 * 4096 + 1 * p.val = 4096 * t.val + p.val; rw [h0]; omega
  | ⟨1, _⟩ => show win0_2.index t 1 * 128 + 1 * k.val = k.val; rw [h1]; omega

/-- The graph numbers' buffer, on an entry p inside the array: the array's entry 4096·t + p. -/
theorem batch_at (c : Dev nD) (t : Fin cfg0.N) (d : S4096.Idx → BitVec 32) (p : Fin 4096)
    (hp : p.val < min 4096 (400000 - 4096 * t.val)) (hr : 4096 * t.val + p.val < 400000) :
    win0_3.fill (grid0.coords t) d (iblk m c 3 t) (ix1 p)
      = m ((c : Thread nD τ).loc main_arg4) (ix1 ⟨4096 * t.val + p.val, hr⟩) := by
  obtain ⟨h0, hx0⟩ := (rows_at t).2.2.2.1
  have hmv : win0_3.moved (grid0.coords t) (ix1 p) = true := (win0_3.moved_iff _ _).mpr fun a => by
    match a with
    | ⟨0, _⟩ => show p.val < win0_3.xsize (grid0.coords t) 0; rw [hx0]; exact hp
  unfold Window.fill
  rw [dif_pos hmv]
  show V m c main_arg4 (((cfg0.win 3).blk t).view.emb _) = m ((c : Thread nD τ).loc main_arg4) (ix1 ⟨4096 * t.val + p.val, hr⟩)
  rw [V_main_arg4]
  refine congrArg _ (funext fun a => Fin.ext ?_)
  match a with
  | ⟨0, _⟩ => show win0_3.index t 0 * 4096 + 1 * p.val = 4096 * t.val + p.val; rw [h0]; omega

/-! ## The parameter windows hold their whole arrays -/

/-- The graph table's window holds the table. -/
theorem table_blk (c : Dev nD) (t : Fin cfg0.N) : iblk m c 4 t = m ((c : Thread nD τ).loc main_arg3) := by
  have h := (params_at t).1
  funext y
  show V m c main_arg3 (((cfg0.win 4).blk t).view.emb y) = m ((c : Thread nD τ).loc main_arg3) y
  rw [V_main_arg3]
  refine congrArg _ (funext fun a => Fin.ext ?_)
  show win0_4.index t a * win0_4.size a + 1 * (y a).val = (y a).val
  rw [h a]; omega

/-- The first bias's window holds the bias. -/
theorem bias1_blk (c : Dev nD) (t : Fin cfg0.N) : iblk m c 9 t = m ((c : Thread nD τ).loc main_arg6) := by
  have h := (params_at t).2.2.2.2.2.1
  funext y
  show V m c main_arg6 (((cfg0.win 9).blk t).view.emb y) = m ((c : Thread nD τ).loc main_arg6) y
  rw [V_main_arg6]
  refine congrArg _ (funext fun a => Fin.ext ?_)
  show win0_9.index t a * win0_9.size a + 1 * (y a).val = (y a).val
  rw [h a]; omega

/-- The second layer's matrix window holds the matrix. -/
theorem w2_blk (c : Dev nD) (t : Fin cfg0.N) : iblk m c 10 t = m ((c : Thread nD τ).loc main_arg7) := by
  have h := (params_at t).2.2.2.2.2.2.1
  funext y
  show V m c main_arg7 (((cfg0.win 10).blk t).view.emb y) = m ((c : Thread nD τ).loc main_arg7) y
  rw [V_main_arg7]
  refine congrArg _ (funext fun a => Fin.ext ?_)
  show win0_10.index t a * win0_10.size a + 1 * (y a).val = (y a).val
  rw [h a]; omega

/-- The second bias's window holds the bias. -/
theorem bias2_blk (c : Dev nD) (t : Fin cfg0.N) : iblk m c 11 t = m ((c : Thread nD τ).loc main_arg8) := by
  have h := (params_at t).2.2.2.2.2.2.2
  funext y
  show V m c main_arg8 (((cfg0.win 11).blk t).view.emb y) = m ((c : Thread nD τ).loc main_arg8) y
  rw [V_main_arg8]
  refine congrArg _ (funext fun a => Fin.ext ?_)
  show win0_11.index t a * win0_11.size a + 1 * (y a).val = (y a).val
  rw [h a]; omega

/-- What @main's slice of the first layer's matrix at rows 0..127 holds when the region is entered. -/
theorem V_main_v0 (c : Dev nD) : (V m c main_v0 : S128x128.Idx → Elt Ideal .f32)
    = extractStridedSlice S128x128 ![0, 0] (m ((c : Thread nD τ).loc main_arg5)) Facts₀.slices_S512x128_S128x128_0_0 := by
  dsimp only [Gen.V, Gen.hostOps0]; after_results

/-- The window over that slice holds, at every point, rows 0..127 of the matrix. -/
theorem w1_blk0 (c : Dev nD) (t : Fin cfg0.N) :
    iblk m c 5 t = sliceRows (m ((c : Thread nD τ).loc main_arg5)) 0 (by omega) := by
  have h := (params_at t).2.1
  funext y
  show V m c main_v0 (((cfg0.win 5).blk t).view.emb y) = _
  have e : ((cfg0.win 5).blk t).view.emb y = y := funext fun a => Fin.ext (by
    show win0_5.index t a * win0_5.size a + 1 * (y a).val = (y a).val
    rw [h a]; omega)
  rw [e, V_main_v0]
  refine extractStridedSlice_apply _ _ _ y _ fun a => ?_
  match a with
  | ⟨0, _⟩ => rfl
  | ⟨1, _⟩ => show (y 1).val = 0 + (y 1).val; omega

/-- What @main's slice of the first layer's matrix at rows 128..255 holds when the region is entered. -/
theorem V_main_v1 (c : Dev nD) : (V m c main_v1 : S128x128.Idx → Elt Ideal .f32)
    = extractStridedSlice S128x128 ![128, 0] (m ((c : Thread nD τ).loc main_arg5)) Facts₀.slices_S512x128_S128x128_128_0 := by
  dsimp only [Gen.V, Gen.hostOps0]; after_results

/-- The window over that slice holds, at every point, rows 128..255 of the matrix. -/
theorem w1_blk1 (c : Dev nD) (t : Fin cfg0.N) :
    iblk m c 6 t = sliceRows (m ((c : Thread nD τ).loc main_arg5)) 128 (by omega) := by
  have h := (params_at t).2.2.1
  funext y
  show V m c main_v1 (((cfg0.win 6).blk t).view.emb y) = _
  have e : ((cfg0.win 6).blk t).view.emb y = y := funext fun a => Fin.ext (by
    show win0_6.index t a * win0_6.size a + 1 * (y a).val = (y a).val
    rw [h a]; omega)
  rw [e, V_main_v1]
  refine extractStridedSlice_apply _ _ _ y _ fun a => ?_
  match a with
  | ⟨0, _⟩ => rfl
  | ⟨1, _⟩ => show (y 1).val = 0 + (y 1).val; omega

/-- What @main's slice of the first layer's matrix at rows 256..383 holds when the region is entered. -/
theorem V_main_v2 (c : Dev nD) : (V m c main_v2 : S128x128.Idx → Elt Ideal .f32)
    = extractStridedSlice S128x128 ![256, 0] (m ((c : Thread nD τ).loc main_arg5)) Facts₀.slices_S512x128_S128x128_256_0 := by
  dsimp only [Gen.V, Gen.hostOps0]; after_results

/-- The window over that slice holds, at every point, rows 256..383 of the matrix. -/
theorem w1_blk2 (c : Dev nD) (t : Fin cfg0.N) :
    iblk m c 7 t = sliceRows (m ((c : Thread nD τ).loc main_arg5)) 256 (by omega) := by
  have h := (params_at t).2.2.2.1
  funext y
  show V m c main_v2 (((cfg0.win 7).blk t).view.emb y) = _
  have e : ((cfg0.win 7).blk t).view.emb y = y := funext fun a => Fin.ext (by
    show win0_7.index t a * win0_7.size a + 1 * (y a).val = (y a).val
    rw [h a]; omega)
  rw [e, V_main_v2]
  refine extractStridedSlice_apply _ _ _ y _ fun a => ?_
  match a with
  | ⟨0, _⟩ => rfl
  | ⟨1, _⟩ => show (y 1).val = 0 + (y 1).val; omega

/-- What @main's slice of the first layer's matrix at rows 384..511 holds when the region is entered. -/
theorem V_main_v3 (c : Dev nD) : (V m c main_v3 : S128x128.Idx → Elt Ideal .f32)
    = extractStridedSlice S128x128 ![384, 0] (m ((c : Thread nD τ).loc main_arg5)) Facts₀.slices_S512x128_S128x128_384_0 := by
  dsimp only [Gen.V, Gen.hostOps0]; after_results

/-- The window over that slice holds, at every point, rows 384..511 of the matrix. -/
theorem w1_blk3 (c : Dev nD) (t : Fin cfg0.N) :
    iblk m c 8 t = sliceRows (m ((c : Thread nD τ).loc main_arg5)) 384 (by omega) := by
  have h := (params_at t).2.2.2.2.1
  funext y
  show V m c main_v3 (((cfg0.win 8).blk t).view.emb y) = _
  have e : ((cfg0.win 8).blk t).view.emb y = y := funext fun a => Fin.ext (by
    show win0_8.index t a * win0_8.size a + 1 * (y a).val = (y a).val
    rw [h a]; omega)
  rw [e, V_main_v3]
  refine extractStridedSlice_apply _ _ _ y _ fun a => ?_
  match a with
  | ⟨0, _⟩ => rfl
  | ⟨1, _⟩ => show (y 1).val = 0 + (y 1).val; omega

/-! ## The block's entries inside the arrays are G's -/

/-- Entry (p, q) of what the body computes at point t, for a row p inside the arrays: G's entry (4096·t + p, q), whatever
    the clipped windows' buffers hold past the arrays' end. -/
theorem block_entry (c : Dev nD) (t : Fin cfg0.N) (d0 d1 d2 : S4096x128.Idx → Elt Ideal .f32) (d3 : S4096.Idx → BitVec 32)
    (p : Fin 4096) (q : Fin 128) (hp : p.val < min 4096 (400000 - 4096 * t.val)) (hr : 4096 * t.val + p.val < 400000) :
    k0_pay1 (F := Ideal)
        (k0_pay2 (F := Ideal) (win0_3.fill (grid0.coords t) d3 (iblk m c 3 t)) (iblk m c 4 t)
          (win0_0.fill (grid0.coords t) d0 (iblk m c 0 t)) (win0_1.fill (grid0.coords t) d1 (iblk m c 1 t))
          (win0_2.fill (grid0.coords t) d2 (iblk m c 2 t)) (iblk m c 5 t) (iblk m c 6 t) (iblk m c 7 t) (iblk m c 8 t))
        (iblk m c 9 t) (iblk m c 10 t) (iblk m c 11 t) (ix2 p q)
      = Gfin m c (ix2 ⟨4096 * t.val + p.val, hr⟩ q) := by
  refine (pay_at (win0_3.fill (grid0.coords t) d3 (iblk m c 3 t)) (iblk m c 4 t)
    (win0_0.fill (grid0.coords t) d0 (iblk m c 0 t)) (win0_1.fill (grid0.coords t) d1 (iblk m c 1 t))
    (win0_2.fill (grid0.coords t) d2 (iblk m c 2 t)) (iblk m c 5 t) (iblk m c 6 t) (iblk m c 7 t) (iblk m c 8 t)
    (iblk m c 9 t) (iblk m c 10 t) (iblk m c 11 t) p q).trans ?_
  rw [src_row m c t d0 p hp hr, dst_row m c t d1 p hp hr, edge_row m c t d2 p hp hr, batch_at m c t d3 p hp hr,
    table_blk m c t, w1_blk0 m c t, w1_blk1 m c t, w1_blk2 m c t, w1_blk3 m c t, bias1_blk m c t, w2_blk m c t, bias2_blk m c t]
  rfl

/-- The body's result block at point t, cut at the arrays' end, is G's rows — for ANY contents d of the clipped
    windows' staging rows past the arrays' end. -/
theorem cut_payload_eq (c : Dev nD) (t : Fin cfg0.N) (d0 d1 d2 : S4096x128.Idx → Elt Ideal .f32) (d3 : S4096.Idx → BitVec 32) :
    win0_12.cut (grid0.coords t)
      (k0_pay1 (F := Ideal)
        (k0_pay2 (F := Ideal) (win0_3.fill (grid0.coords t) d3 (iblk m c 3 t)) (iblk m c 4 t)
          (win0_0.fill (grid0.coords t) d0 (iblk m c 0 t)) (win0_1.fill (grid0.coords t) d1 (iblk m c 1 t))
          (win0_2.fill (grid0.coords t) d2 (iblk m c 2 t)) (iblk m c 5 t) (iblk m c 6 t) (iblk m c 7 t) (iblk m c 8 t))
        (iblk m c 9 t) (iblk m c 10 t) (iblk m c 11 t))
      = outRows m c t := by
  obtain ⟨h0, h1, hx0, hx1⟩ := (rows_at t).2.2.2.2
  funext j
  have hj0 : (j 0).val < win0_12.xsize (grid0.coords t) 0 := (j 0).isLt
  have hj1 : (j 1).val < win0_12.xsize (grid0.coords t) 1 := (j 1).isLt
  rw [hx0] at hj0
  rw [hx1] at hj1
  have ht : t.val < 98 := t.isLt
  have hp4 : (j 0).val < 4096 := by omega
  have hr : 4096 * t.val + (j 0).val < 400000 := by omega
  have e : win0_12.xinj (grid0.coords t) j = ix2 (⟨(j 0).val, hp4⟩ : Fin 4096) (⟨(j 1).val, hj1⟩ : Fin 128) :=
    funext fun a => Fin.ext (by
      match a with
      | ⟨0, _⟩ => rfl
      | ⟨1, _⟩ => rfl)
  show k0_pay1 (F := Ideal) _ _ _ _ (win0_12.xinj (grid0.coords t) j) = outRows m c t j
  rw [e, block_entry m c t d0 d1 d2 d3 ⟨(j 0).val, hp4⟩ ⟨(j 1).val, hj1⟩ hj0 hr]
  show Gfin m c _ = Gfin m c (((cfg0.win 12).blk t).view.emb j)
  refine congrArg _ (funext fun a => Fin.ext ?_)
  match a with
  | ⟨0, _⟩ => show 4096 * t.val + (j 0).val = win0_12.index t 0 * 4096 + 1 * (j 0).val; rw [h0]; omega
  | ⟨1, _⟩ => show (j 1).val = win0_12.index t 1 * 128 + 1 * (j 1).val; rw [h1]; omega

end Cert.KernelIdeal.Block

end
-- ==== Proof.IdealBody.lean ====
/-
  The idealized kernel's run, with every array after the run named.

  At each grid point the body reads its thirteen staging buffers whole, computes the block's result from the twelve
  inputs and stores it whole into the result's buffer; the inputs' buffers are left as found. What the result's buffer
  then holds on the rows inside the arrays does not depend on what stood past the arrays' end in the clipped windows
  (each result row is computed from the same row of the inputs): it is the edge model's rows there.
-/
import proofs.«408455_j83760452207461_1_alg».proof.Proof.IdealData
import proofs.«408455_j83760452207461_1_alg».proof.Proof.IdealBlock
import Idealize.ShloMosaic.Lib.Pipeline.Frame
import Idealize.ShloMosaic.Lib.Pipeline.FrameBody
import Idealize.ShloMosaic.Lib.Pipeline.Kit
import Idealize.ShloMosaic.Lib.Tactic

set_option maxRecDepth 16384

noncomputable section

namespace Cert.KernelIdeal.Body

open Cert.KernelIdeal Cert.KernelIdeal.Gen Cert.KernelIdeal.Data Cert.KernelIdeal.Block Cert.EdgeMlp

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.Tactic

/-! ## The body's triple, at any number system -/

section Kernel

variable {F : FTy → Type} [FloatOps F]

local notation "𝕄F" => MT nD τ sig Unit (Elt F) ℕ (UR sig nD τ) ℕ

set_option maxHeartbeats 1000000 in
/-- The kernel body on whole staging memrefs: twelve whole loads, the dead load of the result's buffer, the block's
    arithmetic, one whole store. The inputs' buffers are left as found; the result's buffer ends at the payload of what
    the inputs' buffers read. A load through the whole rectangle at offset zero reads the contents, and the one store
    through it leaves its payload. -/
theorem sound_kernel (c : Dev nD) (E : Set ℕ) (i : grid0.Coords)
    (a0 : Memref sig .tc .vmem S4096x128 .f32) (h0 : a0.IsWhole)
    (a1 : Memref sig .tc .vmem S4096x128 .f32) (h1 : a1.IsWhole)
    (a2 : Memref sig .tc .vmem S4096x128 .f32) (h2 : a2.IsWhole)
    (a3 : Memref sig .tc .vmem S4096 .i32) (h3 : a3.IsWhole)
    (a4 : Memref sig .tc .vmem S512x128 .f32) (h4 : a4.IsWhole)
    (a5 : Memref sig .tc .vmem S128x128 .f32) (h5 : a5.IsWhole)
    (a6 : Memref sig .tc .vmem S128x128 .f32) (h6 : a6.IsWhole)
    (a7 : Memref sig .tc .vmem S128x128 .f32) (h7 : a7.IsWhole)
    (a8 : Memref sig .tc .vmem S128x128 .f32) (h8 : a8.IsWhole)
    (a9 : Memref sig .tc .vmem S128 .f32) (h9 : a9.IsWhole)
    (a10 : Memref sig .tc .vmem S128x128 .f32) (h10 : a10.IsWhole)
    (a11 : Memref sig .tc .vmem S128 .f32) (h11 : a11.IsWhole)
    (a12 : Memref sig .tc .vmem S4096x128 .f32) (h12 : a12.IsWhole)
    (x0 : Vec F S4096x128 .f32) (x1 : Vec F S4096x128 .f32) (x2 : Vec F S4096x128 .f32) (x3 : Vec F S4096 .i32) (x4 : Vec F S512x128 .f32) (x5 : Vec F S128x128 .f32) (x6 : Vec F S128x128 .f32) (x7 : Vec F S128x128 .f32) (x8 : Vec F S128x128 .f32) (x9 : Vec F S128 .f32) (x10 : Vec F S128x128 .f32) (x11 : Vec F S128 .f32)
    (K : PUnit → sProp 𝕄F) :
    iprop(owns (c : Thread nD τ) a0 fullShare x0
        ∗ owns (c : Thread nD τ) a1 fullShare x1
        ∗ owns (c : Thread nD τ) a2 fullShare x2
        ∗ owns (c : Thread nD τ) a3 fullShare x3
        ∗ owns (c : Thread nD τ) a4 fullShare x4
        ∗ owns (c : Thread nD τ) a5 fullShare x5
        ∗ owns (c : Thread nD τ) a6 fullShare x6
        ∗ owns (c : Thread nD τ) a7 fullShare x7
        ∗ owns (c : Thread nD τ) a8 fullShare x8
        ∗ owns (c : Thread nD τ) a9 fullShare x9
        ∗ owns (c : Thread nD τ) a10 fullShare x10
        ∗ owns (c : Thread nD τ) a11 fullShare x11
        ∗ (∃ d, owns (c : Thread nD τ) a12 fullShare d)
        ∗ (iprop(owns (c : Thread nD τ) a0 fullShare x0
            ∗ owns (c : Thread nD τ) a1 fullShare x1
            ∗ owns (c : Thread nD τ) a2 fullShare x2
            ∗ owns (c : Thread nD τ) a3 fullShare x3
            ∗ owns (c : Thread nD τ) a4 fullShare x4
            ∗ owns (c : Thread nD τ) a5 fullShare x5
            ∗ owns (c : Thread nD τ) a6 fullShare x6
            ∗ owns (c : Thread nD τ) a7 fullShare x7
            ∗ owns (c : Thread nD τ) a8 fullShare x8
            ∗ owns (c : Thread nD τ) a9 fullShare x9
            ∗ owns (c : Thread nD τ) a10 fullShare x10
            ∗ owns (c : Thread nD τ) a11 fullShare x11
            ∗ owns (c : Thread nD τ) a12 fullShare (k0_pay1 (k0_pay2 x3 x4 x0 x1 x2 x5 x6 x7 x8) x9 x10 x11)) -∗ K ⟨⟩))
      ⊢ wp frame (wpE (defs₀ (F := F)) Variants.none c none) E
          (cc0__kernel i a0 h0 a1 h1 a2 h2 a3 h3 a4 h4 a5 h5 a6 h6 a7 h7 a8 h8 a9 h9 a10 h10 a11 h11 a12 h12) K := by
  simp only [cc0__kernel_eq_skeleton]; unfold cc0__kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, Hk⟩
  subst hf0 hf1 hf2 hf3 hf4 hf5 hf6 hf7 hf8 hf9 hf10 hf11
  sl_exec
  sl_step
  iapply Hk
  have hz1 : (![0] : Fin 1 → Nat) = fun _ => 0 := funext fun a => by fin_cases a; rfl
  have hz2 : (![0, 0] : Fin 2 → Nat) = fun _ => 0 := funext fun a => by fin_cases a <;> rfl
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  iexists _; isplitr
  swap; · iexact H12
  ipureintro
  rw [View.read_writes_eq_canon _ _ _ (fun y => ⟨_, List.mem_singleton_self _, View.mem_set_unit_zero hz2 inb_S4096x128_S4096x128_0_0 y⟩),
    View.canon_unit_zero hz2]
  simp only [View.readAt_eq_ld, View.ld_unit_zero (S := S4096) hz1, View.ld_unit_zero (S := S128) hz1,
    View.ld_unit_zero (S := S4096x128) hz2, View.ld_unit_zero (S := S512x128) hz2, View.ld_unit_zero (S := S128x128) hz2]

end Kernel

local notation "𝕄" => MT nD τ sig Unit (Elt Ideal) ℕ (UR sig nD τ) ℕ

variable (m : (ℓ : Loc nD τ sig) → Buf (Elt Ideal) ℓ) (ρ : Dev nD → PrngReg)

/-! ## What the body finds in each window's buffer -/

/-- A clipped input window is fetched at every point: its buffer holds the block on the rows inside the array and,
    past the array's end, whatever the overwrite before the cut fetch left. -/
theorem before_0 (c : Dev nD) (t : Fin cfg0.N) (d) :
    (dats m 0 c).before 0 t d = win0_0.fill (grid0.coords t) d (iblk m c 0 t) := by
  unfold Dat.before; rw [if_pos (fetch0_0 t)]; rfl
/-- A clipped input window is fetched at every point: its buffer holds the block on the rows inside the array and,
    past the array's end, whatever the overwrite before the cut fetch left. -/
theorem before_1 (c : Dev nD) (t : Fin cfg0.N) (d) :
    (dats m 0 c).before 1 t d = win0_1.fill (grid0.coords t) d (iblk m c 1 t) := by
  unfold Dat.before; rw [if_pos (fetch0_1 t)]; rfl
/-- A clipped input window is fetched at every point: its buffer holds the block on the rows inside the array and,
    past the array's end, whatever the overwrite before the cut fetch left. -/
theorem before_2 (c : Dev nD) (t : Fin cfg0.N) (d) :
    (dats m 0 c).before 2 t d = win0_2.fill (grid0.coords t) d (iblk m c 2 t) := by
  unfold Dat.before; rw [if_pos (fetch0_2 t)]; rfl
/-- A clipped input window is fetched at every point: its buffer holds the block on the rows inside the array and,
    past the array's end, whatever the overwrite before the cut fetch left. -/
theorem before_3 (c : Dev nD) (t : Fin cfg0.N) (d) :
    (dats m 0 c).before 3 t d = win0_3.fill (grid0.coords t) d (iblk m c 3 t) := by
  unfold Dat.before; rw [if_pos (fetch0_3 t)]; rfl
/-- A whole-array input window holds its block at every point, fetched there or not. -/
theorem before_4 (c : Dev nD) (t : Fin cfg0.N) (d) : (dats m 0 c).before 4 t d = iblk m c 4 t :=
  before0_4_of m (dats m 0 c) rfl (fun _ => rfl) t d
/-- A whole-array input window holds its block at every point, fetched there or not. -/
theorem before_5 (c : Dev nD) (t : Fin cfg0.N) (d) : (dats m 0 c).before 5 t d = iblk m c 5 t :=
  before0_5_of m (dats m 0 c) rfl (fun _ => rfl) t d
/-- A whole-array input window holds its block at every point, fetched there or not. -/
theorem before_6 (c : Dev nD) (t : Fin cfg0.N) (d) : (dats m 0 c).before 6 t d = iblk m c 6 t :=
  before0_6_of m (dats m 0 c) rfl (fun _ => rfl) t d
/-- A whole-array input window holds its block at every point, fetched there or not. -/
theorem before_7 (c : Dev nD) (t : Fin cfg0.N) (d) : (dats m 0 c).before 7 t d = iblk m c 7 t :=
  before0_7_of m (dats m 0 c) rfl (fun _ => rfl) t d
/-- A whole-array input window holds its block at every point, fetched there or not. -/
theorem before_8 (c : Dev nD) (t : Fin cfg0.N) (d) : (dats m 0 c).before 8 t d = iblk m c 8 t :=
  before0_8_of m (dats m 0 c) rfl (fun _ => rfl) t d
/-- A whole-array input window holds its block at every point, fetched there or not. -/
theorem before_9 (c : Dev nD) (t : Fin cfg0.N) (d) : (dats m 0 c).before 9 t d = iblk m c 9 t :=
  before0_9_of m (dats m 0 c) rfl (fun _ => rfl) t d
/-- A whole-array input window holds its block at every point, fetched there or not. -/
theorem before_10 (c : Dev nD) (t : Fin cfg0.N) (d) : (dats m 0 c).before 10 t d = iblk m c 10 t :=
  before0_10_of m (dats m 0 c) rfl (fun _ => rfl) t d
/-- A whole-array input window holds its block at every point, fetched there or not. -/
theorem before_11 (c : Dev nD) (t : Fin cfg0.N) (d) : (dats m 0 c).before 11 t d = iblk m c 11 t :=
  before0_11_of m (dats m 0 c) rfl (fun _ => rfl) t d
/-- The result's buffer is written back at every point, so the body finds it at contents nothing names. -/
theorem before_12 (c : Dev nD) (t : Fin cfg0.N) (d) : (dats m 0 c).before 12 t d = d :=
  (dats m 0 c).before_out_reset 12 rfl t
    (if ht : t.val = 0 then .inl ht else .inr ⟨ht, flush0_12 _⟩) d

/-! ## The body obligation, at a generic point -/

/-- What the body is called with at point t: the invariant, nothing owed, and each window's current buffer at what it
    then holds. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d)))

/-- What it returns: a clipped window's buffer stated on the rows inside the array only, the others exactly. -/
def bodyPost (c : Dev nD) (t : Fin cfg0.N) : sProp 𝕄 :=
  iprop((dats m 0 c).Φ t.succ ∗ (dats m 0 c).owesAt () t.succ
    ∗ (∃ d, owns (c : Thread nD τ) (st0_0 t) fullShare (win0_0.fill (grid0.coords t) d (win0_0.cut (grid0.coords t) ((dats m 0 c).after 0 t))))
    ∗ (∃ d, owns (c : Thread nD τ) (st0_1 t) fullShare (win0_1.fill (grid0.coords t) d (win0_1.cut (grid0.coords t) ((dats m 0 c).after 1 t))))
    ∗ (∃ d, owns (c : Thread nD τ) (st0_2 t) fullShare (win0_2.fill (grid0.coords t) d (win0_2.cut (grid0.coords t) ((dats m 0 c).after 2 t))))
    ∗ (∃ d, owns (c : Thread nD τ) (st0_3 t) fullShare (win0_3.fill (grid0.coords t) d (win0_3.cut (grid0.coords t) ((dats m 0 c).after 3 t))))
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ (∃ d, owns (c : Thread nD τ) (st0_12 t) fullShare (win0_12.fill (grid0.coords t) d (win0_12.cut (grid0.coords t) ((dats m 0 c).after 12 t)))))

set_option maxHeartbeats 1000000 in
/-- The body at any point. The inputs' buffers hold their blocks (a clipped one filled out past the array's end with
    contents d nothing names), so the body's triple applies; each input buffer is handed back as found, which on the rows
    inside the array is the block; the result's buffer holds the payload of the buffers as found, whose rows inside the
    array are G's rows whatever the d's are. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  rw [before_0 m c t d0, before_1 m c t d1, before_2 m c t d2, before_3 m c t d3, before_4 m c t d4, before_5 m c t d5, before_6 m c t d6, before_7 m c t d7, before_8 m c t d8, before_9 m c t d9, before_10 m c t d10, before_11 m c t d11, before_12 m c t d12]
  iapply (sound_kernel (F := Ideal) c Set.univ (grid0.coords t) _ _ _ _ _ _ _ _ _ _ _ _ _ _ _ _ _ _ _ _ _ _ _ _ _ _
    (win0_0.fill (grid0.coords t) d0 (iblk m c 0 t))
    (win0_1.fill (grid0.coords t) d1 (iblk m c 1 t))
    (win0_2.fill (grid0.coords t) d2 (iblk m c 2 t))
    (win0_3.fill (grid0.coords t) d3 (iblk m c 3 t))
    (iblk m c 4 t)
    (iblk m c 5 t)
    (iblk m c 6 t)
    (iblk m c 7 t)
    (iblk m c 8 t)
    (iblk m c 9 t)
    (iblk m c 10 t)
    (iblk m c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]
  · iexists d0
    rw [show (dats m 0 c).after 0 t = win0_0.fill (grid0.coords t) (fun _ => zeroE) (iblk m c 0 t) from rfl, win0_0.cut_fill]
    iexact H0
  isplitl [H1]
  · iexists d1
    rw [show (dats m 0 c).after 1 t = win0_1.fill (grid0.coords t) (fun _ => zeroE) (iblk m c 1 t) from rfl, win0_1.cut_fill]
    iexact H1
  isplitl [H2]
  · iexists d2
    rw [show (dats m 0 c).after 2 t = win0_2.fill (grid0.coords t) (fun _ => zeroE) (iblk m c 2 t) from rfl, win0_2.cut_fill]
    iexact H2
  isplitl [H3]
  · iexists d3
    rw [show (dats m 0 c).after 3 t = win0_3.fill (grid0.coords t) (fun _ => (0#32 : BitVec 32)) (iblk m c 3 t) from rfl, win0_3.cut_fill]
    iexact H3
  isplitl [H4]
  · rw [show (dats m 0 c).after 4 t = iblk m c 4 t from rfl]; iexact H4
  isplitl [H5]
  · rw [show (dats m 0 c).after 5 t = iblk m c 5 t from rfl]; iexact H5
  isplitl [H6]
  · rw [show (dats m 0 c).after 6 t = iblk m c 6 t from rfl]; iexact H6
  isplitl [H7]
  · rw [show (dats m 0 c).after 7 t = iblk m c 7 t from rfl]; iexact H7
  isplitl [H8]
  · rw [show (dats m 0 c).after 8 t = iblk m c 8 t from rfl]; iexact H8
  isplitl [H9]
  · rw [show (dats m 0 c).after 9 t = iblk m c 9 t from rfl]; iexact H9
  isplitl [H10]
  · rw [show (dats m 0 c).after 10 t = iblk m c 10 t from rfl]; iexact H10
  isplitl [H11]
  · rw [show (dats m 0 c).after 11 t = iblk m c 11 t from rfl]; iexact H11
  iexists (k0_pay1 (F := Ideal) (k0_pay2 (F := Ideal) (win0_3.fill (grid0.coords t) d3 (iblk m c 3 t)) (iblk m c 4 t) (win0_0.fill (grid0.coords t) d0 (iblk m c 0 t)) (win0_1.fill (grid0.coords t) d1 (iblk m c 1 t)) (win0_2.fill (grid0.coords t) d2 (iblk m c 2 t)) (iblk m c 5 t) (iblk m c 6 t) (iblk m c 7 t) (iblk m c 8 t)) (iblk m c 9 t) (iblk m c 10 t) (iblk m c 11 t))
  rw [show (dats m 0 c).after 12 t = win0_12.fill (grid0.coords t) (fun _ => zeroE) (outRows m c t) from rfl, win0_12.cut_fill,
    ← cut_payload_eq m c t d0 d1 d2 d3, win0_12.fill_cut]
  iexact H12

/-- The library's body obligation, at every point. -/
theorem body_obligation (c : Dev nD) : BodyObligationLoose (dats m 0 c) (defs₀ (F := Ideal)) Variants.none () Set.univ := fun t => by
  rw [bigSep_W0, bigSep_W0]
  exact sound_body m c t

/-! ## The run -/

set_option backward.isDefEq.respectTransparency.types false in
/-- Every weakly fair execution of the idealized kernel's @main terminates, without a fault, with each window's array
    at what the proof data computes (an input at its entry contents, the result at the blocks written back) and every
    other unscoped buffer as the region found it. -/
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := fun _ _ => rfl) (hΦ := fun _ _ => rfl)

end Cert.KernelIdeal.Body

end
-- ==== Proof.IdealValue.lean ====
/-
  After the run the result array holds the edge model G, all 400000 rows.

  Point t writes back the rows of its block that lie inside the array: rows 4096·t .. 4096·t + 4095, and at the last
  point (t = 97) only the 2688 rows up to 399999. What it writes is G's rows there. Row r lies in the block of point
  r / 4096, so the 98 blocks cover the array and it ends holding G.
-/
import proofs.«408455_j83760452207461_1_alg».proof.Proof.IdealData
import proofs.«408455_j83760452207461_1_alg».proof.Proof.IdealBody
import Idealize.ShloMosaic.Lib.Pipeline.Value

set_option maxRecDepth 16384

noncomputable section

namespace Cert.KernelIdeal.ArrayValue

open Cert.KernelIdeal Cert.KernelIdeal.Gen Cert.KernelIdeal.Data Cert.EdgeMlp

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (m : (ℓ : Loc nD τ sig) → Buf (Elt Ideal) ℓ) (ρ : Dev nD → PrngReg)

/-- What point t writes back is G read through the point's block. -/
theorem flushed_out (c : Dev nD) (t : Fin cfg0.N) :
    (dats m 0 c).flushed 12 t = ((cfg0.win 12).blk t).view.read (Elt Ideal) (Gfin m c) := by
  show win0_12.cut (grid0.coords t) (win0_12.fill (grid0.coords t) (fun _ => zeroE) (outRows m c t)) = _
  rw [Window.cut_fill]
  rfl

/-- Where the result window's block at point t lies: it starts at row 4096·t and column 0, and the transfer moves
    min 4096 (400000 − 4096·t) rows of all 128 columns. Decided over the 98 points. -/
theorem out_block : ∀ t : Fin cfg0.N,
    win0_12.index t 0 = t.val ∧ win0_12.index t 1 = 0
      ∧ win0_12.xsize (grid0.coords t) 0 = min 4096 (400000 - 4096 * t.val) ∧ win0_12.xsize (grid0.coords t) 1 = 128 :=
  (by decide +kernel : ∀ t : Fin grid0.N,
    win0_12.index t 0 = t.val ∧ win0_12.index t 1 = 0
      ∧ win0_12.xsize (grid0.coords t) 0 = min 4096 (400000 - 4096 * t.val) ∧ win0_12.xsize (grid0.coords t) 1 = 128)

/-- An entry of the array is in point t's block iff its row is among the rows the point moves. -/
theorem mem_out_block (t : Fin cfg0.N) (i : S400000x128.Idx) :
    i ∈ ((cfg0.win 12).blk t).view.set
      ↔ 4096 * t.val ≤ (i 0).val ∧ (i 0).val < 4096 * t.val + min 4096 (400000 - 4096 * t.val) := by
  show i ∈ ((View.whole main_v4).slice (win0_12.rect t)).set ↔ _
  rw [View.set_slice_whole, Rect.mem_set_unit]
  obtain ⟨h0, h1, hx0, hx1⟩ := out_block t
  have hc : (i 1 : Nat) < 128 := (i 1).isLt
  constructor
  · intro h
    have := h 0
    change win0_12.index t 0 * 4096 ≤ (i 0 : Nat) ∧ (i 0 : Nat) < win0_12.index t 0 * 4096 + win0_12.xsize (grid0.coords t) 0 at this
    rw [h0, hx0] at this
    omega
  · intro h a
    match a with
    | ⟨0, _⟩ =>
      change win0_12.index t 0 * 4096 ≤ (i 0 : Nat) ∧ (i 0 : Nat) < win0_12.index t 0 * 4096 + win0_12.xsize (grid0.coords t) 0
      rw [h0, hx0]; omega
    | ⟨1, _⟩ =>
      change win0_12.index t 1 * 128 ≤ (i 1 : Nat) ∧ (i 1 : Nat) < win0_12.index t 1 * 128 + win0_12.xsize (grid0.coords t) 1
      rw [h1, hx1]; omega

/-- THE RESULT ARRAY AFTER THE RUN is G. -/
theorem final_out (c : Dev nD) : (dats m 0 c).arrAt 12 cfg0.N = Gfin m c :=
  (dats m 0 c).arrAt_eq_of_cover 12 (Gfin m c) (fun t _ => flushed_out m c t) (fun i => by
    have hr : (i 0 : Nat) < 400000 := (i 0).isLt
    refine ⟨⟨(i 0 : Nat) / 4096, by show (i 0 : Nat) / 4096 < 98; omega⟩, flush0_12 _, ?_⟩
    rw [mem_out_block]
    show 4096 * ((i 0 : Nat) / 4096) ≤ (i 0 : Nat) ∧ (i 0 : Nat) < 4096 * ((i 0 : Nat) / 4096) + min 4096 (400000 - 4096 * ((i 0 : Nat) / 4096))
    omega)

/-- The idealized kernel's run with its result named: the result array ends at G, the nine arguments as launched. -/
theorem run_value : θ_run defs (onTc (τ := τ) (main (F := Ideal))) ⟨m, fun _ => 0, ρ⟩ (fun r => ∀ c : Dev nD,
      r.2.mem ((c.tc : Thread nD τ).loc main_v4) = Gfin m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).1 12).trans (final_out m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 4).trans (((dats m 0 c).arrAt_in 4 rfl _).trans ((A_eq m c 4).trans (V_main_arg3 m c))),
      ((h c).1 3).trans (((dats m 0 c).arrAt_in 3 rfl _).trans ((A_eq m c 3).trans (V_main_arg4 m c))),
      ((h c).2 main_arg5 (Pipeline.mem_restRefs_of main_arg5 (by decide) (by decide))).trans (V_main_arg5 m c),
      ((h c).1 9).trans (((dats m 0 c).arrAt_in 9 rfl _).trans ((A_eq m c 9).trans (V_main_arg6 m c))),
      ((h c).1 10).trans (((dats m 0 c).arrAt_in 10 rfl _).trans ((A_eq m c 10).trans (V_main_arg7 m c))),
      ((h c).1 11).trans (((dats m 0 c).arrAt_in 11 rfl _).trans ((A_eq m c 11).trans (V_main_arg8 m c)))⟩)
    (Cert.KernelIdeal.Body.run_main m ρ)

end Cert.KernelIdeal.ArrayValue

end
-- ==== Proof.SpecLaws.lean ====
/-
  Two laws of the edge model's arithmetic on the extended reals.
  (1) A sum over the 512 graphs weighted by the indicator of one in-range graph number is that graph's term: the other
      511 weights are the number 0, and 0 times any extended real (the infinities included) is 0.
  (2) A 512-term sum whose terms come in four consecutive blocks of 128 is the four block sums added left to right.
-/
import proofs.«408455_j83760452207461_1_alg».proof.Proof.Spec

noncomputable section

open scoped BigOperators

namespace Cert.EdgeMlp

open Idealize.ShloMosaic Idealize.ShloMosaic.ValueIdx Idealize.ShloMosaic.SageSpec

/-! ## The indicator selects a row -/

/-- The comparison bit of two words, widened to a word and read as a signed integer, is 1 when they are equal and 0
    when they are not. -/
theorem cmpi_eq_setWidth_toInt (w v : BitVec 32) :
    ((IntOp.cmpi .eq w v).setWidth 32).toInt = if w = v then 1 else 0 := by
  unfold IntOp.cmpi
  by_cases h : w = v
  · subst h; simp
  · have : (w == v) = false := by simpa using h
    simp [this, h]

/-- The indicator of an in-range graph number w is 1 at w and 0 at the other 511 graphs: a graph g below 512 has the
    word of its number equal to w exactly when its number is w's, both being below 2^32. -/
theorem onehotRow_apply (w : BitVec 32) (hw : w.toNat < 512) (g : Fin 512) :
    onehotRow w g = if g = ⟨w.toNat, hw⟩ then (1 : EReal) else 0 := by
  unfold onehotRow
  show ((((IntOp.cmpi .eq w (BitVec.ofNat 32 g.val)).setWidth 32).toInt : ℝ) : EReal) = _
  rw [cmpi_eq_setWidth_toInt]
  have hg := g.isLt
  have hiff : w = BitVec.ofNat 32 g.val ↔ g = ⟨w.toNat, hw⟩ := by
    constructor
    · intro h
      apply Fin.ext
      have := congrArg BitVec.toNat h
      simp only [BitVec.toNat_ofNat] at this
      show g.val = w.toNat
      omega
    · intro h
      apply BitVec.eq_of_toNat_eq
      have : g.val = w.toNat := congrArg Fin.val h
      simp only [BitVec.toNat_ofNat]
      omega
  by_cases h : g = ⟨w.toNat, hw⟩
  · rw [if_pos (hiff.mpr h), if_pos h]; simp
  · rw [if_neg (fun h' => h (hiff.mp h')), if_neg h]; simp

/-- Summing the table's rows against the indicator of an in-range graph number selects that row. -/
theorem pickRow_eq (w : BitVec 32) (hw : w.toNat < 512) (U : Mat 512 128) (j : Fin 128) :
    pickRow w U j = U (ix2 ⟨w.toNat, hw⟩ j) := by
  unfold pickRow vecDot
  rw [Finset.sum_eq_single (⟨w.toNat, hw⟩ : Fin 512)]
  · rw [onehotRow_apply w hw, if_pos rfl, one_mul]
  · intro g _ hne
    rw [onehotRow_apply w hw, if_neg hne, zero_mul]
  · intro h; exact absurd (Finset.mem_univ _) h

/-! ## The 512-term sum in four blocks -/

/-- An entry of a 128-row slice is the table's entry 'o' rows further down. -/
theorem sliceRows_apply (W1 : Mat 512 128) (o : Nat) (h : o + 128 ≤ 512) (j k : Fin 128) :
    sliceRows W1 o h (ix2 j k) = W1 (ix2 ⟨o + j.val, by have := j.isLt; omega⟩ k) := rfl

/-- A sum over 512 consecutive terms is the sum of its four consecutive blocks of 128, added left to right:
    512 = ((128 + 128) + 128) + 128, and a sum over a + b terms is the first a plus the last b. -/
theorem sum_four_blocks (f : Fin 512 → EReal) :
    ∑ κ : Fin 512, f κ
      = ∑ j : Fin 128, f ⟨0 + j.val, by have := j.isLt; omega⟩ + ∑ j : Fin 128, f ⟨128 + j.val, by have := j.isLt; omega⟩
        + ∑ j : Fin 128, f ⟨256 + j.val, by have := j.isLt; omega⟩
        + ∑ j : Fin 128, f ⟨384 + j.val, by have := j.isLt; omega⟩ := by
  have h1 : ∑ κ : Fin 512, f κ = ∑ i : Fin 384, f (Fin.castAdd 128 i) + ∑ i : Fin 128, f (Fin.natAdd 384 i) :=
    Fin.sum_univ_add (a := 384) (b := 128) (fun i => f i)
  have h2 : ∑ i : Fin 384, f (Fin.castAdd 128 i)
      = ∑ i : Fin 256, f (Fin.castAdd 128 (Fin.castAdd 128 i : Fin 384))
        + ∑ i : Fin 128, f (Fin.castAdd 128 (Fin.natAdd 256 i : Fin 384)) :=
    Fin.sum_univ_add (a := 256) (b := 128) (fun i => f (Fin.castAdd 128 (i : Fin 384)))
  have h3 : ∑ i : Fin 256, f (Fin.castAdd 128 (Fin.castAdd 128 i : Fin 384))
      = ∑ i : Fin 128, f (Fin.castAdd 128 (Fin.castAdd 128 (Fin.castAdd 128 i : Fin 256) : Fin 384))
        + ∑ i : Fin 128, f (Fin.castAdd 128 (Fin.castAdd 128 (Fin.natAdd 128 i : Fin 256) : Fin 384)) :=
    Fin.sum_univ_add (a := 128) (b := 128) (fun i => f (Fin.castAdd 128 (Fin.castAdd 128 (i : Fin 256) : Fin 384)))
  rw [h1, h2, h3]
  have e0 : ∀ j : Fin 128, (Fin.castAdd 128 (Fin.castAdd 128 (Fin.castAdd 128 j : Fin 256) : Fin 384) : Fin 512)
      = ⟨0 + j.val, by have := j.isLt; omega⟩ := fun j => Fin.ext (Nat.zero_add _).symm
  have e1 : ∀ j : Fin 128, (Fin.castAdd 128 (Fin.castAdd 128 (Fin.natAdd 128 j : Fin 256) : Fin 384) : Fin 512)
      = ⟨128 + j.val, by have := j.isLt; omega⟩ := fun j => rfl
  have e2 : ∀ j : Fin 128, (Fin.castAdd 128 (Fin.natAdd 256 j : Fin 384) : Fin 512)
      = ⟨256 + j.val, by have := j.isLt; omega⟩ := fun j => rfl
  have e3 : ∀ j : Fin 128, (Fin.natAdd 384 j : Fin 512) = ⟨384 + j.val, by have := j.isLt; omega⟩ := fun j => rfl
  simp only [e0, e1, e2, e3]

/-- The concatenation's entries 0 .. 127 are the first row's. -/
theorem catRow_block0 (s d e g : Fin 128 → EReal) (j : Fin 128) :
    catRow s d e g ⟨0 + j.val, by have := j.isLt; omega⟩ = s j := by
  have hj := j.isLt
  unfold catRow
  rw [dif_pos (show (0 + j.val) < 128 by omega)]
  exact congrArg s (Fin.ext (Nat.zero_add _))

/-- The concatenation's entries 128 .. 255 are the second row's. -/
theorem catRow_block1 (s d e g : Fin 128 → EReal) (j : Fin 128) :
    catRow s d e g ⟨128 + j.val, by have := j.isLt; omega⟩ = d j := by
  have hj := j.isLt
  unfold catRow
  rw [dif_neg (show ¬ (128 + j.val) < 128 by omega), dif_pos (show (128 + j.val) < 256 by omega)]
  exact congrArg d (Fin.ext (by show 128 + j.val - 128 = j.val; omega))

/-- The concatenation's entries 256 .. 383 are the third row's. -/
theorem catRow_block2 (s d e g : Fin 128 → EReal) (j : Fin 128) :
    catRow s d e g ⟨256 + j.val, by have := j.isLt; omega⟩ = e j := by
  have hj := j.isLt
  unfold catRow
  rw [dif_neg (show ¬ (256 + j.val) < 128 by omega), dif_neg (show ¬ (256 + j.val) < 256 by omega),
    dif_pos (show (256 + j.val) < 384 by omega)]
  exact congrArg e (Fin.ext (by show 256 + j.val - 256 = j.val; omega))

/-- The concatenation's entries 384 .. 511 are the fourth row's. -/
theorem catRow_block3 (s d e g : Fin 128 → EReal) (j : Fin 128) :
    catRow s d e g ⟨384 + j.val, by have := j.isLt; omega⟩ = g j := by
  have hj := j.isLt
  unfold catRow
  rw [dif_neg (show ¬ (384 + j.val) < 128 by omega), dif_neg (show ¬ (384 + j.val) < 256 by omega),
    dif_neg (show ¬ (384 + j.val) < 384 by omega)]
  exact congrArg g (Fin.ext (by show 384 + j.val - 384 = j.val; omega))

/-- The concatenated row against the 512-row matrix is the four rows each against its own 128 rows of it. -/
theorem vecDot_catRow (s d e g : Fin 128 → EReal) (W1 : Mat 512 128) (k : Fin 128) :
    vecDot (catRow s d e g) W1 k
      = vecDot s (sliceRows W1 0 (by omega)) k + vecDot d (sliceRows W1 128 (by omega)) k
        + vecDot e (sliceRows W1 256 (by omega)) k + vecDot g (sliceRows W1 384 (by omega)) k := by
  unfold vecDot
  rw [sum_four_blocks]
  simp only [catRow_block0, catRow_block1, catRow_block2, catRow_block3, sliceRows_apply]

/-- The 512-term sum is the four 128-term sums, left to right. -/
theorem refRow_eq_mlpRow (s d e g : Fin 128 → EReal) (W1 : Mat 512 128) (b1 : Fin 128 → EReal) (W2 : Mat 128 128)
    (b2 : Fin 128 → EReal) (q : Fin 128) :
    refRow s d e g W1 b1 W2 b2 q
      = mlpRow s d e g (sliceRows W1 0 (by omega)) (sliceRows W1 128 (by omega)) (sliceRows W1 256 (by omega))
          (sliceRows W1 384 (by omega)) b1 W2 b2 q := by
  unfold refRow mlpRow
  have hh : (fun k => max (vecDot (catRow s d e g) W1 k + b1 k) zeroE)
      = hidRow s d e g (sliceRows W1 0 (by omega)) (sliceRows W1 128 (by omega)) (sliceRows W1 256 (by omega))
          (sliceRows W1 384 (by omega)) b1 := by
    funext k
    unfold hidRow preRow
    rw [vecDot_catRow]
  rw [hh]

end Cert.EdgeMlp

end
-- ==== Proof.LibRowGatherScatter.lean ====
/-
  ROWS OF A TABLE, GATHERED AND SCATTER-ADDED, READ AT AN INDEX.

  For a table of shape [N, C] and E integer row indices (an [E, 1] array of words):

  * the row gather (dimension numbers: offset axis 1, collapsed axis 0, start index map [0], index vector on axis 1,
    slices of size [1, C]) has, at result position (e, j), the table's element at row idx[e, 0] — read as a signed
    integer and clamped into [0, N - 1] — and column j (gather_rows_apply);
  * the row scatter with an add body (window axis 1, inserted axis 0, scatter axis 0, index vector on axis 1) has, at
    the exact (extended-real) instance, at position (n, j) the operand's element plus the sum, over the rows e of the
    updates whose index idx[e, 0], read as a signed integer and NOT clamped, is exactly n, of upd[e, j]; a row whose
    index lies outside [0, N) contributes nowhere (scatterAdd_rows_apply);
  * both operations act column by column, so they commute with restricting every array to a block of columns
    c0, …, c0 + C' - 1 (gather_rows_cols, scatterAdd_rows_cols).
-/
import Idealize.ShloMosaic.Lib.ValueIdx
import Idealize.ShloMosaic.PureOps.Contract

noncomputable section

open scoped BigOperators

namespace Cert.LibRows

open Idealize.ShloMosaic Idealize.ShloMosaic.ValueIdx

/-! ## The row gather -/

section Gather
variable {α : Type}

/-- The row gather's dimension numbers for a table [N, C], start indices [E, 1] and result [E, C]; their conditions
    are decided on literal shapes. -/
abbrev rowGather (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The conditions hold only of a table with at least one row: the size-1 slice must fit on axis 0. -/
theorem rowGather_pos {N E C : Nat}
    (wf : GatherDims.WF ⟨2, ![N, C]⟩ ⟨2, ![E, 1]⟩ ⟨2, ![E, C]⟩ [1] [0] [] [0] [] 1 ![1, C]) : 0 < N :=
  (rowGather N E C wf).slice_le 0

/-- THE ROW GATHER AT (e, j): the table at row idx[e, 0], read signed and clamped into [0, N - 1], and column j. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (j : Fin C) :
    Host.gather (rowGather N E C wf) x idx (ix2 e j)
      = x (ix2 ⟨min (idx (ix2 e (0 : Fin 1))).toInt.toNat (N - 1), by omega⟩ j) := by
  have h10 : (1 : Fin 2) ∉ ([0] : List (Fin 2)) := by decide
  -- axis 0 is collapsed: no offset coordinate; its start is the clamped index
  have h0 : (rowGather N E C wf).start (ix2 e j) idx (0 : Fin 2) + (rowGather N E C wf).batchCoord (ix2 e j) (0 : Fin 2)
      + (rowGather N E C wf).offCoord (ix2 e j) (0 : Fin 2) = min (idx (ix2 e (0 : Fin 1))).toInt.toNat (N - 1) := by
    rw [GatherDims.batchCoord_eq_zero _ _ _ List.not_mem_nil, GatherDims.offCoord_eq_zero _ _ _
      (fun h => ((GatherDims.mem_sKept _ _).mp h).1 (List.mem_singleton.mpr rfl))]
    simp only [Nat.add_zero]
    unfold GatherDims.start
    rw [dif_pos (show (0 : Fin 2) ∈ (rowGather N E C wf).startIndexMap from List.mem_singleton.mpr rfl)]
    have hsi : (rowGather N E C wf).siIdx (ix2 e j) ⟨List.idxOf (0 : Fin 2) (rowGather N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  -- axis 1 is not indexed: its start is 0 and its offset coordinate the result's column
  have h1 : (rowGather N E C wf).start (ix2 e j) idx (1 : Fin 2) + (rowGather N E C wf).batchCoord (ix2 e j) (1 : Fin 2)
      + (rowGather N E C wf).offCoord (ix2 e j) (1 : Fin 2) = j.val := by
    have hs : (rowGather N E C wf).start (ix2 e j) idx (1 : Fin 2) = 0 := by
      unfold GatherDims.start
      rw [dif_neg (show (1 : Fin 2) ∉ (rowGather N E C wf).startIndexMap from h10)]
    have ho : (rowGather N E C wf).offCoord (ix2 e j) (1 : Fin 2) = j.val := by
      unfold GatherDims.offCoord
      rw [dif_pos (show (1 : Fin 2) ∈ (rowGather N E C wf).sKept from
        (GatherDims.mem_sKept _ _).mpr ⟨h10, List.not_mem_nil⟩)]
      rfl
    rw [GatherDims.batchCoord_eq_zero _ _ _ List.not_mem_nil, hs, ho]; omega
  unfold Host.gather
  congr 1
  funext a
  refine Fin.ext ?_
  match a with
  | ⟨0, _⟩ => exact h0
  | ⟨1, _⟩ => exact h1

end Gather

/-! ## The row scatter with an add body -/

section Scatter

/-- The row scatter's dimension numbers for an operand [N, C], scatter indices [E, 1] and updates [E, C]; their
    conditions are decided on literal shapes. -/
abbrev rowScatter (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)

/-- On axis 0 the window of update (e, j) starts at the index idx[e, 0], read signed. -/
theorem rowScatter_start0 (idx : IVec ⟨2, ![E, 1]⟩ w) (e : Fin E) (j : Fin C) :
    (rowScatter N E C wf).start (ix2 e j) idx (0 : Fin 2) = (idx (ix2 e (0 : Fin 1))).toInt := by
  unfold ScatterDims.start
  rw [dif_pos (show (0 : Fin 2) ∈ (rowScatter N E C wf).scatterDimsToOperandDims from List.mem_singleton.mpr rfl)]
  have hsi : (rowScatter N E C wf).siIdx (ix2 e j)
      ⟨List.idxOf (0 : Fin 2) (rowScatter N E C wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On axis 1, which no index names, it starts at 0. -/
theorem rowScatter_start1 (idx : IVec ⟨2, ![E, 1]⟩ w) (e : Fin E) (j : Fin C) :
    (rowScatter N E C wf).start (ix2 e j) idx (1 : Fin 2) = 0 := by
  unfold ScatterDims.start
  have h10 : (1 : Fin 2) ∉ ([0] : List (Fin 2)) := by decide
  rw [dif_neg (show (1 : Fin 2) ∉ (rowScatter N E C wf).scatterDimsToOperandDims from h10)]

/-- Axis 0 is an inserted axis: the window coordinate there is 0. -/
theorem rowScatter_window0 (e : Fin E) (j : Fin C) : (rowScatter N E C wf).window (ix2 e j) (0 : Fin 2) = 0 := by
  unfold ScatterDims.window
  rw [dif_neg (show (0 : Fin 2) ∉ (rowScatter N E C wf).sKept from by
    simp [ScatterDims.sKept, Shape.kept, List.mem_filter, List.mem_finRange])]

/-- On axis 1 the window coordinate is the update's column. -/
theorem rowScatter_window1 (e : Fin E) (j : Fin C) : (rowScatter N E C wf).window (ix2 e j) (1 : Fin 2) = j.val := by
  unfold ScatterDims.window
  rw [dif_pos (show (1 : Fin 2) ∈ (rowScatter N E C wf).sKept from by
    simp [ScatterDims.sKept, Shape.kept, List.mem_filter, List.mem_finRange])]
  rfl

/-- WHERE AN UPDATE LANDS: update (e, j') goes to operand position (n, j) exactly when its row index idx[e, 0], read
    signed, is n and j' = j. (An index outside [0, N) is no n : Fin N: that update lands nowhere.) -/
theorem rowScatter_resultIdx?_eq_some (idx : IVec ⟨2, ![E, 1]⟩ w) (e : Fin E) (j' : Fin C) (n : Fin N) (j : Fin C) :
    (rowScatter N E C wf).resultIdx? (ix2 e j') idx = some (ix2 n j)
      ↔ (idx (ix2 e (0 : Fin 1))).toInt = (n.val : ℤ) ∧ j' = j := by
  have hs0 := rowScatter_start0 wf idx e j'
  have hs1 := rowScatter_start1 wf idx e j'
  have hw0 := rowScatter_window0 wf e j'
  have hw1 := rowScatter_window1 wf e j'
  constructor
  · intro h
    unfold ScatterDims.resultIdx? at h
    split at h
    · rename_i hall
      have h' := Option.some.inj h
      have e0 : ((rowScatter N E C wf).start (ix2 e j') idx (0 : Fin 2)
          + ((rowScatter N E C wf).window (ix2 e j') (0 : Fin 2) : ℤ)).toNat = n.val :=
        congrArg (fun f => (f (0 : Fin 2)).val) h'
      have e1 : ((rowScatter N E C wf).start (ix2 e j') idx (1 : Fin 2)
          + ((rowScatter N E C wf).window (ix2 e j') (1 : Fin 2) : ℤ)).toNat = j.val :=
        congrArg (fun f => (f (1 : Fin 2)).val) h'
      have b0 := (hall (0 : Fin 2)).1
      rw [hs0, hw0] at e0 b0
      rw [hs1, hw1] at e1
      exact ⟨by omega, Fin.ext (by omega)⟩
    · exact absurd h (by simp)
  · rintro ⟨hn, rfl⟩
    unfold ScatterDims.resultIdx?
    have hall : ∀ a, 0 ≤ (rowScatter N E C wf).start (ix2 e j') idx a + ((rowScatter N E C wf).window (ix2 e j') a : ℤ)
        ∧ (rowScatter N E C wf).start (ix2 e j') idx a + ((rowScatter N E C wf).window (ix2 e j') a : ℤ)
          < (((⟨2, ![N, C]⟩ : Shape).size a : ℕ) : ℤ) := by
      intro a
      match a with
      | ⟨0, _⟩ =>
        show 0 ≤ (rowScatter N E C wf).start (ix2 e j') idx (0 : Fin 2)
            + ((rowScatter N E C wf).window (ix2 e j') (0 : Fin 2) : ℤ)
          ∧ (rowScatter N E C wf).start (ix2 e j') idx (0 : Fin 2)
            + ((rowScatter N E C wf).window (ix2 e j') (0 : Fin 2) : ℤ) < ((N : ℕ) : ℤ)
        rw [hs0, hw0, hn]; have := n.isLt; omega
      | ⟨1, _⟩ =>
        show 0 ≤ (rowScatter N E C wf).start (ix2 e j') idx (1 : Fin 2)
            + ((rowScatter N E C wf).window (ix2 e j') (1 : Fin 2) : ℤ)
          ∧ (rowScatter N E C wf).start (ix2 e j') idx (1 : Fin 2)
            + ((rowScatter N E C wf).window (ix2 e j') (1 : Fin 2) : ℤ) < ((C : ℕ) : ℤ)
        rw [hs1, hw1]; have := j'.isLt; omega
    rw [dif_pos hall]
    congr 1
    funext a
    refine Fin.ext ?_
    match a with
    | ⟨0, _⟩ =>
      show ((rowScatter N E C wf).start (ix2 e j') idx (0 : Fin 2)
          + ((rowScatter N E C wf).window (ix2 e j') (0 : Fin 2) : ℤ)).toNat = n.val
      rw [hs0, hw0, hn]; omega
    | ⟨1, _⟩ =>
      show ((rowScatter N E C wf).start (ix2 e j') idx (1 : Fin 2)
          + ((rowScatter N E C wf).window (ix2 e j') (1 : Fin 2) : ℤ)).toNat = j'.val
      rw [hs1, hw1]; omega

/-- THE ROW SCATTER-ADD AT (n, j), exact instance: the operand's element plus the sum of upd[e, j] over the update
    rows e whose index idx[e, 0], read signed and not clamped, is n. -/
theorem scatterAdd_rows_apply (x : (⟨2, ![N, C]⟩ : Shape).Idx → EReal) (idx : IVec ⟨2, ![E, 1]⟩ w)
    (upd : (⟨2, ![E, C]⟩ : Shape).Idx → EReal) (n : Fin N) (j : Fin C) :
    Ideal.hostScatterAdd (rowScatter N E C wf) x idx upd (ix2 n j)
      = x (ix2 n j) + ∑ e ∈ Finset.univ.filter (fun e : Fin E => (idx (ix2 e (0 : Fin 1))).toInt = (n.val : ℤ)),
          upd (ix2 e j) := by
  unfold Ideal.hostScatterAdd
  congr 1
  -- the updates that land at (n, j) are the (e, j) with idx[e, 0] = n: re-index the sum by the row e
  refine Finset.sum_nbij' (fun u : (⟨2, ![E, C]⟩ : Shape).Idx => (u 0 : Fin E)) (fun e : Fin E => ix2 e j) ?_ ?_ ?_ ?_ ?_
  · intro u hu
    obtain ⟨e, j', rfl⟩ : ∃ (e : Fin E) (j' : Fin C), u = ix2 e j' := ⟨u 0, u 1, eq_ix2 u⟩
    exact Finset.mem_filter.mpr ⟨Finset.mem_univ _,
      ((rowScatter_resultIdx?_eq_some wf idx e j' n j).mp (Finset.mem_filter.mp hu).2).1⟩
  · intro e he
    exact Finset.mem_filter.mpr ⟨Finset.mem_univ _,
      (rowScatter_resultIdx?_eq_some wf idx e j n j).mpr ⟨(Finset.mem_filter.mp he).2, rfl⟩⟩
  · intro u hu
    obtain ⟨e, j', rfl⟩ : ∃ (e : Fin E) (j' : Fin C), u = ix2 e j' := ⟨u 0, u 1, eq_ix2 u⟩
    obtain ⟨-, rfl⟩ := (rowScatter_resultIdx?_eq_some wf idx e j' n j).mp (Finset.mem_filter.mp hu).2
    rfl
  · intro e _
    rfl
  · intro u hu
    obtain ⟨e, j', rfl⟩ : ∃ (e : Fin E) (j' : Fin C), u = ix2 e j' := ⟨u 0, u 1, eq_ix2 u⟩
    obtain ⟨-, rfl⟩ := (rowScatter_resultIdx?_eq_some wf idx e j' n j).mp (Finset.mem_filter.mp hu).2
    rfl

/-- The same of the host operation at the exact instance, for any float format. -/
theorem host_scatterAdd_rows_apply {φ : FTy} (x : FVec Ideal ⟨2, ![N, C]⟩ φ) (idx : IVec ⟨2, ![E, 1]⟩ w)
    (upd : FVec Ideal ⟨2, ![E, C]⟩ φ) (n : Fin N) (j : Fin C) :
    Host.scatterAdd (F := Ideal) (rowScatter N E C wf) x idx upd (ix2 n j)
      = x (ix2 n j) + ∑ e ∈ Finset.univ.filter (fun e : Fin E => (idx (ix2 e (0 : Fin 1))).toInt = (n.val : ℤ)),
          upd (ix2 e j) := by
  unfold Host.scatterAdd
  rw [Ideal.hostScatterAdd_def]
  exact scatterAdd_rows_apply wf x idx upd n j

end Scatter

/-! ## Restriction to a block of columns -/

section Cols

/-- The columns c0, …, c0 + C' - 1 of an [R, C] array, as an [R, C'] array. -/
def cols {α : Type} {R C C' : Nat} (c0 : Nat) (h : c0 + C' ≤ C) (X : (⟨2, ![R, C]⟩ : Shape).Idx → α) :
    (⟨2, ![R, C']⟩ : Shape).Idx → α :=
  fun i => X (ix2 ⟨(i 0).val, idx2_lt0 i⟩ ⟨c0 + (i 1).val, by have := idx2_lt1 i; omega⟩)

/-- Its element (r, c) is the array's element (r, c0 + c). -/
theorem cols_apply {α : Type} {R C C' : Nat} (c0 : Nat) (h : c0 + C' ≤ C) (X : (⟨2, ![R, C]⟩ : Shape).Idx → α)
    (r : Fin R) (c : Fin C') : cols c0 h X (ix2 r c) = X (ix2 r ⟨c0 + c.val, by omega⟩) := rfl

/-- THE ROW GATHER COMMUTES WITH TAKING COLUMNS: gathering rows of the column block is the column block of the
    gathered rows (the row chosen depends on the index only). -/
theorem gather_rows_cols {α : Type} {N E C C' w : Nat} (hN : 0 < N)
    (wf : GatherDims.WF ⟨2, ![N, C]⟩ ⟨2, ![E, 1]⟩ ⟨2, ![E, C]⟩ [1] [0] [] [0] [] 1 ![1, C])
    (wf' : GatherDims.WF ⟨2, ![N, C']⟩ ⟨2, ![E, 1]⟩ ⟨2, ![E, C']⟩ [1] [0] [] [0] [] 1 ![1, C'])
    (c0 : Nat) (h : c0 + C' ≤ C) (x : (⟨2, ![N, C]⟩ : Shape).Idx → α) (idx : IVec ⟨2, ![E, 1]⟩ w) :
    Host.gather (rowGather N E C' wf') (cols c0 h x) idx = cols c0 h (Host.gather (rowGather N E C wf) x idx) := by
  funext i
  obtain ⟨e, c, rfl⟩ : ∃ (e : Fin E) (c : Fin C'), i = ix2 e c := ⟨i 0, i 1, eq_ix2 i⟩
  rw [gather_rows_apply hN wf', cols_apply, cols_apply, gather_rows_apply hN wf]

/-- THE ROW SCATTER-ADD COMMUTES WITH TAKING COLUMNS (exact instance): column c0 + c of the result is made of column
    c0 + c of the operand and of the updates only. -/
theorem scatterAdd_rows_cols {φ : FTy} {N E C C' w : Nat}
    (wf : ScatterDims.WF ⟨2, ![N, C]⟩ ⟨2, ![E, 1]⟩ ⟨2, ![E, C]⟩ [1] [0] [0] 1)
    (wf' : ScatterDims.WF ⟨2, ![N, C']⟩ ⟨2, ![E, 1]⟩ ⟨2, ![E, C']⟩ [1] [0] [0] 1)
    (c0 : Nat) (h : c0 + C' ≤ C) (x : FVec Ideal ⟨2, ![N, C]⟩ φ) (idx : IVec ⟨2, ![E, 1]⟩ w)
    (upd : FVec Ideal ⟨2, ![E, C]⟩ φ) :
    Host.scatterAdd (F := Ideal) (rowScatter N E C' wf') (cols c0 h x) idx (cols c0 h upd)
      = cols c0 h (Host.scatterAdd (F := Ideal) (rowScatter N E C wf) x idx upd) := by
  funext i
  obtain ⟨n, c, rfl⟩ : ∃ (n : Fin N) (c : Fin C'), i = ix2 n c := ⟨i 0, i 1, eq_ix2 i⟩
  rw [host_scatterAdd_rows_apply wf', cols_apply, cols_apply, host_scatterAdd_rows_apply wf]
  rfl

end Cols

end Cert.LibRows

end
-- ==== Proof.RefValue.lean ====
/-
  The reference program's result, entry by entry, is the edge model G. Its gather reads the graph table at the edge's
  graph number (wrapped if negative, then clamped into the table: for a graph number in 0..511 that is the number
  itself), its concatenation lays the four 128-blocks side by side, its first product is one 512-term sum per entry,
  and the rest is the same bias, clip, product and bias.
-/
import proofs.«408455_j83760452207461_1_alg».proof.Proof.Gen.ReferenceIdeal.Read
import proofs.«408455_j83760452207461_1_alg».proof.Proof.Spec
import proofs.«408455_j83760452207461_1_alg».proof.Proof.SpecLaws
import proofs.«408455_j83760452207461_1_alg».proof.Proof.LibSageSpec
import proofs.«408455_j83760452207461_1_alg».proof.Proof.LibRowGatherScatter
import Idealize.ShloMosaic.Lib.Pipeline.Value

noncomputable section

namespace Cert.ReferenceIdeal.RefValue

open Cert.ReferenceIdeal Cert.ReferenceIdeal.Gen Cert.EdgeMlp
open Idealize.ShloMosaic Idealize.ShloMosaic.ValueIdx Idealize.ShloMosaic.SageSpec

/-! ## Index equations: each stage's read position at an entry (e, q), as a pair of coordinates -/

theorem lidx13 (e : Fin 400000) (q k : Fin 128) : Read.lidx_main_v13 (ix2 e q) k = ix2 e k :=
  funext fun a => Fin.ext (by match a with | ⟨0, _⟩ => rfl | ⟨1, _⟩ => rfl)

theorem ridx13 (e : Fin 400000) (q k : Fin 128) : Read.ridx_main_v13 (ix2 e q) k = ix2 k q :=
  funext fun a => Fin.ext (by match a with | ⟨0, _⟩ => rfl | ⟨1, _⟩ => rfl)

theorem lidx8 (e : Fin 400000) (k : Fin 128) (κ : Fin 512) : Read.lidx_main_v8 (ix2 e k) κ = ix2 e κ :=
  funext fun a => Fin.ext (by match a with | ⟨0, _⟩ => rfl | ⟨1, _⟩ => rfl)

theorem ridx8 (e : Fin 400000) (k : Fin 128) (κ : Fin 512) : Read.ridx_main_v8 (ix2 e k) κ = ix2 κ k :=
  funext fun a => Fin.ext (by match a with | ⟨0, _⟩ => rfl | ⟨1, _⟩ => rfl)

theorem idx15_14 (e : Fin 400000) (q : Fin 128) : Read.idx_main_v14 (Read.idx_main_v15 (ix2 e q)) = ix1 q :=
  funext fun a => Fin.ext (by match a with | ⟨0, _⟩ => rfl)

theorem idx10_9 (e : Fin 400000) (k : Fin 128) : Read.idx_main_v9 (Read.idx_main_v10 (ix2 e k)) = ix1 k :=
  funext fun a => Fin.ext (by match a with | ⟨0, _⟩ => rfl)

theorem idx5 (e : Fin 400000) : Read.idx_main_v5 (ix2 e (0 : Fin 1)) = ix1 e :=
  funext fun a => Fin.ext (by match a with | ⟨0, _⟩ => rfl)

/-! ## The graph number as a row of the table -/

/-- A word that reads as a non-negative signed integer reads as the same number unsigned. -/
theorem toInt_eq_toNat_of_nonneg (w : BitVec 32) (h0 : 0 ≤ w.toInt) : w.toInt = (w.toNat : Int) := by
  have hlt : w.toNat < 2 ^ 32 := w.isLt
  have hc := BitVec.toInt_eq_toNat_cond w
  split at hc <;> omega

/-- A graph number in 0..511 is below 512 read unsigned. -/
theorem toNat_lt (w : BitVec 32) (h : 0 ≤ w.toInt ∧ w.toInt < 512) : w.toNat < 512 := by
  have := toInt_eq_toNat_of_nonneg w h.1
  omega

/-- Reading it signed and clamping into 0..511 leaves it as it is. -/
theorem clamp_eq (w : BitVec 32) (h : 0 ≤ w.toInt ∧ w.toInt < 512) : min w.toInt.toNat (512 - 1) = w.toNat := by
  have := toInt_eq_toNat_of_nonneg w h.1
  omega

/-- The wrap of a negative number does nothing to a non-negative one. -/
theorem select_slt_zero (w a b : BitVec 32) (h : 0 ≤ w.toInt) : Scalar.select (IntOp.cmpi .slt w 0#32) a b = b := by
  have hlt : w.slt 0#32 = false := by
    simp only [BitVec.slt, BitVec.toInt_zero, decide_eq_false_iff_not, Int.not_lt]
    exact h
  show (if BitVec.ofBool (w.slt 0#32) = 1 then _ else _) = _
  rw [hlt]
  rfl

/-- The index the gather reads for edge e is the edge's graph number. -/
theorem idx_at (x4 : (⟨S400000, .i32⟩ : BufTy).Contents (Elt Ideal)) (e : Fin 400000) (h : 0 ≤ (x4 (ix1 e)).toInt) :
    Read.val_main_v5 (F := Ideal) x4 (ix2 e (0 : Fin 1)) = x4 (ix1 e) := by
  rw [Read.val_main_v5_apply, idx5, Read.val_main_v4_apply, Read.val_main_v1_apply, Read.val_main_v0_apply,
    Read.val_main_c_apply]
  exact select_slt_zero _ _ _ h

/-! ## The gather: the table's row at the graph number -/

/-- The printed dimension numbers are the row gather's. -/
theorem gather_dims : gather_S512x128_S400000x1_S400000x128_1_0_n_n_0_1_1128
    = Cert.LibRows.rowGather 512 400000 128 Facts₀.gather_S512x128_S400000x1_S400000x128_1_0_n_n_0_1_1128_wf := rfl

/-- The gathered entry (e, j) is the table's entry (graph number of e, j). -/
theorem gather_at (x3 : (⟨S512x128, .f32⟩ : BufTy).Contents (Elt Ideal))
    (x4 : (⟨S400000, .i32⟩ : BufTy).Contents (Elt Ideal)) (e : Fin 400000) (j : Fin 128)
    (h : 0 ≤ (x4 (ix1 e)).toInt ∧ (x4 (ix1 e)).toInt < 512) :
    Read.val_main_v6 (F := Ideal) x3 x4 (ix2 e j) = x3 (ix2 ⟨(x4 (ix1 e)).toNat, toNat_lt _ h⟩ j) := by
  unfold Read.val_main_v6
  rw [gather_dims]
  refine (Cert.LibRows.gather_rows_apply (by decide) _ x3 (Read.val_main_v5 (F := Ideal) x4) e j).trans ?_
  have hrow : (⟨min (Read.val_main_v5 (F := Ideal) x4 (ix2 e (0 : Fin 1))).toInt.toNat (512 - 1),
      by have := Nat.min_le_right (Read.val_main_v5 (F := Ideal) x4 (ix2 e (0 : Fin 1))).toInt.toNat (512 - 1); omega⟩ : Fin 512)
      = ⟨(x4 (ix1 e)).toNat, toNat_lt _ h⟩ := Fin.ext (by
    show min (Read.val_main_v5 (F := Ideal) x4 (ix2 e (0 : Fin 1))).toInt.toNat (512 - 1) = (x4 (ix1 e)).toNat
    rw [idx_at x4 e h.1]
    exact clamp_eq _ h)
  exact congrArg (fun r : Fin 512 => x3 (ix2 r j)) hrow

/-! ## The concatenation: four blocks of 128 side by side -/

/-- The concatenated entry (e, κ) is the entry of the block κ falls in, at κ less the blocks before it. -/
theorem cat_at (x0 x1 x2 : (⟨S400000x128, .f32⟩ : BufTy).Contents (Elt Ideal))
    (x3 : (⟨S512x128, .f32⟩ : BufTy).Contents (Elt Ideal)) (x4 : (⟨S400000, .i32⟩ : BufTy).Contents (Elt Ideal))
    (e : Fin 400000) (κ : Fin 512) (h : 0 ≤ (x4 (ix1 e)).toInt ∧ (x4 (ix1 e)).toInt < 512) :
    Read.val_main_v7 (F := Ideal) x0 x1 x2 x3 x4 (ix2 e κ)
      = catRow (rowOf x0 e) (rowOf x1 e) (rowOf x2 e) (pickRow (x4 (ix1 e)) x3) κ := by
  unfold Read.val_main_v7 catRow
  by_cases h1 : κ.val < 128
  · rw [dif_pos h1]
    exact concatenate_apply_piece _ _ _ (ix2 e κ) 0 (by show (0 : Nat) < 4; decide) S400000x128 x0 rfl rfl 0 rfl
      (ix2 e ⟨κ.val, h1⟩) (fun b hb => by match b with | ⟨0, _⟩ => rfl | ⟨1, _⟩ => exact absurd rfl hb)
      (by show 0 + κ.val = κ.val; omega)
  · rw [dif_neg h1]
    by_cases h2 : κ.val < 256
    · rw [dif_pos h2]
      exact concatenate_apply_piece _ _ _ (ix2 e κ) 1 (by show (1 : Nat) < 4; decide) S400000x128 x1 rfl rfl 128 rfl
        (ix2 e ⟨κ.val - 128, by omega⟩) (fun b hb => by match b with | ⟨0, _⟩ => rfl | ⟨1, _⟩ => exact absurd rfl hb)
        (by show 128 + (κ.val - 128) = κ.val; omega)
    · rw [dif_neg h2]
      by_cases h3 : κ.val < 384
      · rw [dif_pos h3]
        exact concatenate_apply_piece _ _ _ (ix2 e κ) 2 (by show (2 : Nat) < 4; decide) S400000x128 x2 rfl rfl 256 rfl
          (ix2 e ⟨κ.val - 256, by omega⟩) (fun b hb => by match b with | ⟨0, _⟩ => rfl | ⟨1, _⟩ => exact absurd rfl hb)
          (by show 256 + (κ.val - 256) = κ.val; omega)
      · rw [dif_neg h3]
        have hκ := κ.isLt
        refine (concatenate_apply_piece _ _ _ (ix2 e κ) 3 (by show (3 : Nat) < 4; decide) S400000x128 (Read.val_main_v6 (F := Ideal) x3 x4) rfl rfl 384 rfl
          (ix2 e ⟨κ.val - 384, by omega⟩) (fun b hb => by match b with | ⟨0, _⟩ => rfl | ⟨1, _⟩ => exact absurd rfl hb)
          (by show 384 + (κ.val - 384) = κ.val; omega)).trans ?_
        rw [gather_at x3 x4 e _ h]
        exact (pickRow_eq (x4 (ix1 e)) (toNat_lt _ h) x3 _).symm

/-! ## The two layers -/

/-- The clipped first layer's entry (e, k): the 512-term sum of the concatenated row against column k, plus the bias,
    clipped below at zero. -/
theorem hid_at (x0 x1 x2 : (⟨S400000x128, .f32⟩ : BufTy).Contents (Elt Ideal))
    (x3 : (⟨S512x128, .f32⟩ : BufTy).Contents (Elt Ideal)) (x4 : (⟨S400000, .i32⟩ : BufTy).Contents (Elt Ideal))
    (x5 : (⟨S512x128, .f32⟩ : BufTy).Contents (Elt Ideal)) (x6 : (⟨S128, .f32⟩ : BufTy).Contents (Elt Ideal))
    (e : Fin 400000) (k : Fin 128) (h : 0 ≤ (x4 (ix1 e)).toInt ∧ (x4 (ix1 e)).toInt < 512) :
    Read.val_main_v12 (F := Ideal) x0 x1 x2 x3 x4 x5 x6 (ix2 e k)
      = max (vecDot (catRow (rowOf x0 e) (rowOf x1 e) (rowOf x2 e) (pickRow (x4 (ix1 e)) x3)) x5 k + x6 (ix1 k)) zeroE := by
  rw [Read.val_main_v12_apply, Read.val_main_v11_apply, Read.val_main_v8_apply, Read.val_main_v10_apply,
    Read.val_main_v9_apply, idx10_9, Read.val_main_call0_v0_apply, Read.val_main_call0_cst_apply, Ideal.maximumf_def,
    Ideal.addf_def]
  have hs : ∑ κ : Fin 512, Read.val_main_v7 (F := Ideal) x0 x1 x2 x3 x4 (Read.lidx_main_v8 (ix2 e k) κ)
        * x5 (Read.ridx_main_v8 (ix2 e k) κ)
      = vecDot (catRow (rowOf x0 e) (rowOf x1 e) (rowOf x2 e) (pickRow (x4 (ix1 e)) x3)) x5 k := by
    unfold vecDot
    refine Finset.sum_congr rfl fun κ _ => ?_
    rw [lidx8, ridx8, cat_at x0 x1 x2 x3 x4 e κ h]
  rw [hs]
  rfl

/-- THE REFERENCE IS G, where every graph number is in 0..511. -/
theorem ref_eq (x0 x1 x2 : (⟨S400000x128, .f32⟩ : BufTy).Contents (Elt Ideal)) (x3 : (⟨S512x128, .f32⟩ : BufTy).Contents (Elt Ideal))
    (x4 : (⟨S400000, .i32⟩ : BufTy).Contents (Elt Ideal)) (x5 : (⟨S512x128, .f32⟩ : BufTy).Contents (Elt Ideal))
    (x6 : (⟨S128, .f32⟩ : BufTy).Contents (Elt Ideal)) (x7 : (⟨S128x128, .f32⟩ : BufTy).Contents (Elt Ideal))
    (x8 : (⟨S128, .f32⟩ : BufTy).Contents (Elt Ideal))
    (hr : ∀ e : Fin 400000, 0 ≤ (x4 (ix1 e)).toInt ∧ (x4 (ix1 e)).toInt < 512) :
    Read.val_main_v16 (F := Ideal) x0 x1 x2 x3 x4 x5 x6 x7 x8
      = G x0 x1 x2 x3 (fun e => x4 (ix1 e)) x5 (fun k => x6 (ix1 k)) x7 (fun k => x8 (ix1 k)) := by
  funext i
  obtain ⟨e, q, rfl⟩ : ∃ (e : Fin 400000) (q : Fin 128), i = ix2 e q := ⟨i 0, i 1, eq_ix2 i⟩
  show _ = mlpRow (rowOf x0 e) (rowOf x1 e) (rowOf x2 e) (pickRow (x4 (ix1 e)) x3)
    (sliceRows x5 0 (by omega)) (sliceRows x5 128 (by omega)) (sliceRows x5 256 (by omega)) (sliceRows x5 384 (by omega))
    (fun k => x6 (ix1 k)) x7 (fun k => x8 (ix1 k)) q
  rw [← refRow_eq_mlpRow, Read.val_main_v16_apply, Read.val_main_v13_apply, Read.val_main_v15_apply,
    Read.val_main_v14_apply, idx15_14, Ideal.addf_def]
  unfold refRow
  congr 1
  unfold vecDot
  refine Finset.sum_congr rfl fun k _ => ?_
  rw [lidx13, ridx13, hid_at x0 x1 x2 x3 x4 x5 x6 e k (hr e)]
  rfl

end Cert.ReferenceIdeal.RefValue

end
-- ==== Proof.PreRange.lean ====
/-
  What the precondition says of the graph numbers: the printed predicate is a conjunction whose last two conjuncts are
  "every graph number is at least 0" and "every graph number is below 512", each an all-reduction of a signed word
  comparison; if the predicate is true, both hold of every edge.
-/
import proofs.«408455_j83760452207461_1_alg».proof.Proof.Gen.Pre_finite_inputs
import Idealize.ShloMosaic.Lib.ReduceAll
import Idealize.ShloMosaic.Lib.StableHlo.Predicate
import Idealize.ShloMosaic.Lib.ValueIdx

noncomputable section

namespace Cert.Pre_finite_inputs.Range

open Cert.Pre_finite_inputs
open Idealize.ShloMosaic Idealize.ShloMosaic.ValueIdx

/-- Under the precondition every graph number is in 0..511. -/
theorem batch_range {F : FTy → Type} [FloatOps F] (a0 a1 a2 : FVec F S400000x128 .f32) (a3 : FVec F S512x128 .f32)
    (a4 : IVec S400000 32) (a5 : FVec F S512x128 .f32) (a6 : FVec F S128 .f32) (a7 : FVec F S128x128 .f32)
    (a8 : FVec F S128 .f32)
    (h : Cert.Pre_finite_inputs.fn (F := F) a0 a1 a2 a3 a4 a5 a6 a7 a8 = fun _ => 1#1) (e : Fin 400000) :
    0 ≤ (a4 (ix1 e)).toInt ∧ (a4 (ix1 e)).toInt < 512 := by
  -- the predicate's value is a single bit: a shape of rank 0 has exactly one index
  haveI : Subsingleton S_.Idx := ⟨fun _ _ => funext fun d => d.elim0⟩
  have h0 := congrFun h ValueIdx.ix0
  -- the predicate is (((finiteness of the eight real arrays) ∧ finiteness of the last bias) ∧ all(batch ≥ 0))
  -- ∧ all(batch < 512); the first group is never opened: it is replaced by an arbitrary bit X
  change fn_part2 (F := F) a4 a8 _ ValueIdx.ix0 = 1#1 at h0
  generalize (andi _ _ : IVec S_ 1) = X at h0
  dsimp only [fn_part2] at h0
  -- a conjunction of bits is 1 exactly when both bits are
  obtain ⟨h1, hlt⟩ := IntOp.andi_eq_one.1 h0
  obtain ⟨-, hge⟩ := IntOp.andi_eq_one.1 h1
  -- an all-reduction by "and" that is 1 had a 1 at every position, in particular at edge e
  have hge' := Host.reduce_andi_all _ _ _ _ _ hge (ix1 e)
  have hlt' := Host.reduce_andi_all _ _ _ _ _ hlt (ix1 e)
  -- a signed comparison bit that is 1 says the signed readings compare that way
  have hge'' := IntOp.cmpi_sge.1 hge'
  have hlt'' := IntOp.cmpi_slt.1 hlt'
  -- the two bounds are scalars broadcast along the edges: at every edge they read 0 and 512
  have hb0 : broadcastInDim S400000 ![] Facts.bcast_S_S400000 (constantI S_ 32 0#32) (ix1 e) = 0#32 :=
    StableHlo.Predicate.bcast_scalar _ Facts.h_S_ _ _
  have hb512 : broadcastInDim S400000 ![] Facts.bcast_S_S400000 (constantI S_ 32 512#32) (ix1 e) = 512#32 :=
    StableHlo.Predicate.bcast_scalar _ Facts.h_S_ _ _
  rw [hb0, show (0#32 : BitVec 32).toInt = 0 from by decide] at hge''
  rw [hb512, show (512#32 : BitVec 32).toInt = 512 from by decide] at hlt''
  exact ⟨hge'', hlt''⟩

end Cert.Pre_finite_inputs.Range

end
-- ==== Proof.lean ====
/-
  An edge model on a graph batch: for each of 400000 edges, the source node's, the destination node's and the edge's
  own 128 features and the 128 features of the graph the edge belongs to go through a two-layer perceptron
  (512 → 128, clip below at zero, 128 → 128).

  The kernel walks the edges in 98 blocks of 4096 (the last block runs past the arrays' end and is cut there). It never
  forms the 512-wide concatenation: it multiplies each 128-block by its own 128 rows of the first matrix and adds the
  four products, and it selects the graph's row by multiplying the 512-row table with the indicator of the edge's graph
  number. The reference concatenates, gathers the graph's row by indexing, and multiplies once.

  Over the extended reals the two agree entry by entry wherever every graph number is one of the 512 graphs
  (0 ≤ batch < 512, the added precondition): a change of float format is the identity; a 512-term sum whose terms come
  in four blocks of 128 is the four block sums added in order (associativity and commutativity only, true of the
  infinities too); and the table's rows weighted by the indicator of graph g sum to row g, because 0 times any extended
  real is 0. Outside that range the two differ (the reference wraps a negative index and clamps, the indicator of a
  number that is no graph is all zeros), which is why the range is assumed. Finiteness of the float inputs is not used.

  Each result row is computed from the same row of the inputs, so whatever the machine leaves in the staging buffers
  past the arrays' end at the last block reaches only result rows that are never written back: the result array ends
  holding the edge model of the arguments (the module on the array's value). At the word level nothing is claimed of
  the result, only the frame: the run ends, nothing faults, the arguments are unchanged.
-/
import proofs.«408455_j83760452207461_1_alg».proof.Defs
import proofs.«408455_j83760452207461_1_alg».proof.Proof.Gen.Kernel
import proofs.«408455_j83760452207461_1_alg».proof.Proof.Gen.KernelIdeal
import proofs.«408455_j83760452207461_1_alg».proof.Proof.Gen.ReferenceIdeal
import proofs.«408455_j83760452207461_1_alg».proof.Proof.Gen.Pre_finite_inputs
import proofs.«408455_j83760452207461_1_alg».proof.Proof.Gen.ReferenceIdeal.Run
import proofs.«408455_j83760452207461_1_alg».proof.Proof.Gen.ReferenceIdeal.Read
import proofs.«408455_j83760452207461_1_alg».proof.Proof.KernelBody
import proofs.«408455_j83760452207461_1_alg».proof.Proof.IdealValue
import proofs.«408455_j83760452207461_1_alg».proof.Proof.RefValue
import proofs.«408455_j83760452207461_1_alg».proof.Proof.PreRange
import Idealize.ShloMosaic.Adequacy
import Idealize.ShloMosaic.Init

noncomputable section

namespace Cert.Proof

open Idealize.ShloMosaic Idealize.ShloMosaic.ValueIdx Idealize.SL.Sem

/-- The word-level kernel runs to the end, faults nowhere, and leaves its arguments unchanged. -/
theorem frame_k : Cert.frame_Kernel := fun m ρ _ => Cert.Kernel.Body.frame (F := Bits) m ρ

/-- So does the idealized kernel: its run with the result named, the result dropped. -/
theorem frame_ki : Cert.frame_KernelIdeal := fun m ρ _ =>
  (θ_run Cert.KernelIdeal.defs _ _).mono (fun _ h c => (h c).2) (Cert.KernelIdeal.ArrayValue.run_value m ρ)

/-- And the reference: its run read back, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the nine arguments, the idealized kernel's result array and the reference's both end
    at the edge model G of the arguments: the kernel's by its run, the reference's because its term is G where every
    graph number is in 0..511, which the precondition says. -/
theorem algebraic : Cert.algebraic_KernelIdeal_ReferenceIdeal := by
  intro m ρ m' ρ' hpre hagree
  refine ⟨fun c => Cert.KernelIdeal.Data.Gfin m c, Cert.KernelIdeal.ArrayValue.run_value m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  rw [a0, a1, a2, a3, a4, a5, a6, a7, a8]
  refine (Cert.ReferenceIdeal.Read.val_main_v16_eq _ _ _ _ _ _ _ _ _).trans ?_
  exact Cert.ReferenceIdeal.RefValue.ref_eq _ _ _ _ _ _ _ _ _
    (fun e => Cert.Pre_finite_inputs.Range.batch_range _ _ _ _ _ _ _ _ _ (hpre c) e)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
